-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S2x256x384 : Shape := ⟨3, ![2, 256, 384]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S2x256x384 : S_.BroadcastsInDim S2x256x384 (![] : Fin 0 → Fin S2x256x384.rank)
  reducesTo_S2x256x384_S_d0_1_2 : S2x256x384.ReducesTo [0, 1, 2] S_
  bcast_S_S2x256 : S_.BroadcastsInDim S2x256 (![] : Fin 0 → Fin S2x256.rank)
  reducesTo_S2x256_S_d0_1 : S2x256.ReducesTo [0, 1] S_
  bcast_S_S2x384x256 : S_.BroadcastsInDim S2x384x256 (![] : Fin 0 → Fin S2x384x256.rank)
  reducesTo_S2x384x256_S_d0_1_2 : S2x384x256.ReducesTo [0, 1, 2] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S800000 32) (main_arg9 : FVec F S2x384 .f32) (main_v33 : IVec S_ 1) : IVec S_ 1 :=
  let main_v34 : FVec F S2x384 .f32 := Host.absf main_arg9
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg2 main_v39
  let main_c_15 : IVec S_ 32 := constantI S_ 32 50000#32
  let main_v41 : IVec S800000 32 := broadcastInDim S800000 ![] bcast_S_S800000 main_c_15
  let main_v42 : IVec S800000 1 := cmpi .slt main_arg2 main_v41
  let main_v43 : IVec S800000 1 := andi main_v40 main_v42
  let main_c_16 : IVec S_ 1 := constantI S_ 1 1#1
  let main_v44 : IVec S_ 1 := (fun x v => Host.reduce IntOp.andi x v reducesTo_S800000_S_d0 h_S_) main_v43 main_c_16
  let main_v45 : IVec S_ 1 := andi main_v38 main_v44
  main_v45

def fn_part1 {F : FTy → Type} [FloatOps F] (main_arg2 : IVec S800000 32) (main_arg6 : FVec F S2x384x256 .f32) (main_arg7 : FVec F S2x384x128 .f32) (main_arg8 : FVec F S2x384 .f32) (main_arg9 : FVec F S2x384 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x384x256 .f32 := Host.absf main_arg6
  let main_cst_6 : FVec F S_ .f32 := constant S_ .f32 0x7F800000#32
  let main_v20 : FVec F S2x384x256 .f32 := broadcastInDim S2x384x256 ![] bcast_S_S2x384x256 main_cst_6
  let main_v21 : IVec S2x384x256 1 := cmpf .olt main_v19 main_v20
  let main_c_7 : IVec S_ 1 := constantI S_ 1 1#1
  let main_v22 : IVec S_ 1 := (fun x v => Host.reduce IntOp.andi x v reducesTo_S2x384x256_S_d0_1_2 h_S_) main_v21 main_c_7
  let main_v23 : IVec S_ 1 := andi main_v18 main_v22
  let main_v24 : FVec F S2x384x128 .f32 := Host.absf main_arg7
  let main_cst_8 : FVec F S_ .f32 := constant S_ .f32 0x7F800000#32
  let main_v25 : FVec F S2x384x128 .f32 := broadcastInDim S2x384x128 ![] bcast_S_S2x384x128 main_cst_8
  let main_v26 : IVec S2x384x128 1 := cmpf .olt main_v24 main_v25
  let main_c_9 : IVec S_ 1 := constantI S_ 1 1#1
  let main_v27 : IVec S_ 1 := (fun x v => Host.reduce IntOp.andi x v reducesTo_S2x384x128_S_d0_1_2 h_S_) main_v26 main_c_9
  let main_v28 : IVec S_ 1 := andi main_v23 main_v27
  let main_v29 : FVec F S2x384 .f32 := Host.absf main_arg8
  let main_cst_10 : FVec F S_ .f32 := constant S_ .f32 0x7F800000#32
  let main_v30 : FVec F S2x384 .f32 := broadcastInDim S2x384 ![] bcast_S_S2x384 main_cst_10
  let main_v31 : IVec S2x384 1 := cmpf .olt main_v29 main_v30
  let main_c_11 : IVec S_ 1 := constantI S_ 1 1#1
  let main_v32 : IVec S_ 1 := (fun x v => Host.reduce IntOp.andi x v reducesTo_S2x384_S_d0_1 h_S_) main_v31 main_c_11
  let main_v33 : IVec S_ 1 := andi main_v28 main_v32
  fn_part2 (F := F) main_arg2 main_arg9 main_v33

def fn {F : FTy → Type} [FloatOps F] (main_arg0 : FVec F S50000x128 .f32) (main_arg1 : FVec F S800000x128 .f32) (main_arg2 : IVec S800000 32) (main_arg3 : IVec S800000 32) (main_arg4 : FVec F S2x256x384 .f32) (main_arg5 : FVec F S2x256 .f32) (main_arg6 : FVec F S2x384x256 .f32) (main_arg7 : FVec F S2x384x128 .f32) (main_arg8 : FVec F S2x384 .f32) (main_arg9 : FVec F S2x384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S2x256x384 .f32 := Host.absf main_arg4
  let main_cst_2 : FVec F S_ .f32 := constant S_ .f32 0x7F800000#32
  let main_v10 : FVec F S2x256x384 .f32 := broadcastInDim S2x256x384 ![] bcast_S_S2x256x384 main_cst_2
  let main_v11 : IVec S2x256x384 1 := cmpf .olt main_v9 main_v10
  let main_c_3 : IVec S_ 1 := constantI S_ 1 1#1
  let main_v12 : IVec S_ 1 := (fun x v => Host.reduce IntOp.andi x v reducesTo_S2x256x384_S_d0_1_2 h_S_) main_v11 main_c_3
  let main_v13 : IVec S_ 1 := andi main_v8 main_v12
  let main_v14 : FVec F S2x256 .f32 := Host.absf main_arg5
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg2 main_arg6 main_arg7 main_arg8 main_arg9 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S2x256x384 : Shape := ⟨3, ![2, 256, 384]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S1x256x384 : Shape := ⟨3, ![1, 256, 384]⟩
abbrev S256x384 : Shape := ⟨2, ![256, 384]⟩
abbrev S384x256 : Shape := ⟨2, ![384, 256]⟩
abbrev S1x384x256 : Shape := ⟨3, ![1, 384, 256]⟩
abbrev S1x384x128 : Shape := ⟨3, ![1, 384, 128]⟩
abbrev S384x128 : Shape := ⟨2, ![384, 128]⟩
abbrev S128x384 : Shape := ⟨2, ![128, 384]⟩
abbrev S1x256 : Shape := ⟨2, ![1, 256]⟩
abbrev S256 : Shape := ⟨1, ![256]⟩
abbrev S1x384 : Shape := ⟨2, ![1, 384]⟩
abbrev S384 : Shape := ⟨1, ![384]⟩
abbrev S2000x128 : Shape := ⟨2, ![2000, 128]⟩
abbrev S2000x1 : Shape := ⟨2, ![2000, 1]⟩
abbrev S2000x384 : Shape := ⟨2, ![2000, 384]⟩
abbrev S2000x256 : Shape := ⟨2, ![2000, 256]⟩

abbrev nBuf : Space → Nat
  | .hbm => 128
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S2x256x384, .f32⟩
  | .hbm, ⟨5, _⟩ => ⟨S2x256, .f32⟩
  | .hbm, ⟨6, _⟩ => ⟨S2x384x256, .f32⟩
  | .hbm, ⟨7, _⟩ => ⟨S2x384x128, .f32⟩
  | .hbm, ⟨8, _⟩ => ⟨S2x384, .f32⟩
  | .hbm, ⟨9, _⟩ => ⟨S2x384, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S1, .i32⟩
  | .hbm, ⟨39, _⟩ => ⟨S_, .i32⟩
  | .hbm, ⟨40, _⟩ => ⟨S800000x1, .i32⟩
  | .hbm, ⟨41, _⟩ => ⟨S800000x1, .i1⟩
  | .hbm, ⟨42, _⟩ => ⟨S1x1, .i32⟩
  | .hbm, ⟨43, _⟩ => ⟨S800000x1, .i32⟩
  | .hbm, ⟨44, _⟩ => ⟨S800000x1, .i1⟩
  | .hbm, ⟨45, _⟩ => ⟨S800000x1, .i1⟩
  | .hbm, ⟨46, _⟩ => ⟨S_, .i1⟩
  | .hbm, ⟨47, _⟩ => ⟨S800000, .i1⟩
  | .hbm, ⟨48, _⟩ => ⟨S800000x128, .f32⟩
  | .hbm, ⟨49, _⟩ => ⟨S800000x128, .i1⟩
  | .hbm, ⟨50, _⟩ => ⟨S_, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x256x384, .f32⟩
  | .hbm, ⟨58, _⟩ => ⟨S256x384, .f32⟩
  | .hbm, ⟨59, _⟩ => ⟨S384x256, .f32⟩
  | .hbm, ⟨60, _⟩ => ⟨S384x256, .bf16⟩
  | .hbm, ⟨61, _⟩ => ⟨S1x384x256, .f32⟩
  | .hbm, ⟨62, _⟩ => ⟨S384x256, .f32⟩
  | .hbm, ⟨63, _⟩ => ⟨S256x384, .f32⟩
  | .hbm, ⟨64, _⟩ => ⟨S256x384, .bf16⟩
  | .hbm, ⟨65, _⟩ => ⟨S1x384x128, .f32⟩
  | .hbm, ⟨66, _⟩ => ⟨S384x128, .f32⟩
  | .hbm, ⟨67, _⟩ => ⟨S128x384, .f32⟩
  | .hbm, ⟨68, _⟩ => ⟨S128x384, .bf16⟩
  | .hbm, ⟨69, _⟩ => ⟨S1x256, .f32⟩
  | .hbm, ⟨70, _⟩ => ⟨S256, .f32⟩
  | .hbm, ⟨71, _⟩ => ⟨S1x384, .f32⟩
  | .hbm, ⟨72, _⟩ => ⟨S384, .f32⟩
  | .hbm, ⟨73, _⟩ => ⟨S1x384, .f32⟩
  | .hbm, ⟨74, _⟩ => ⟨S384, .f32⟩
  | .hbm, ⟨75, _⟩ => ⟨S1x256, .f32⟩
  | .hbm, ⟨76, _⟩ => ⟨S1x384, .f32⟩
  | .hbm, ⟨77, _⟩ => ⟨S1x384, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S1, .i32⟩
  | .hbm, ⟨88, _⟩ => ⟨S_, .i32⟩
  | .hbm, ⟨89, _⟩ => ⟨S800000x1, .i32⟩
  | .hbm, ⟨90, _⟩ => ⟨S800000x1, .i1⟩
  | .hbm, ⟨91, _⟩ => ⟨S1x1, .i32⟩
  | .hbm, ⟨92, _⟩ => ⟨S800000x1, .i32⟩
  | .hbm, ⟨93, _⟩ => ⟨S800000x1, .i1⟩
  | .hbm, ⟨94, _⟩ => ⟨S800000x1, .i1⟩
  | .hbm, ⟨95, _⟩ => ⟨S_, .i1⟩
  | .hbm, ⟨96, _⟩ => ⟨S800000, .i1⟩
  | .hbm, ⟨97, _⟩ => ⟨S800000x128, .f32⟩
  | .hbm, ⟨98, _⟩ => ⟨S800000x128, .i1⟩
  | .hbm, ⟨99, _⟩ => ⟨S_, .f32⟩
  | .hbm, ⟨100, _⟩ => ⟨S800000x128, .f32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S1x256x384, .f32⟩
  | .hbm, ⟨107, _⟩ => ⟨S256x384, .f32⟩
  | .hbm, ⟨108, _⟩ => ⟨S384x256, .f32⟩
  | .hbm, ⟨109, _⟩ => ⟨S384x256, .bf16⟩
  | .hbm, ⟨110, _⟩ => ⟨S1x384x256, .f32⟩
  | .hbm, ⟨111, _⟩ => ⟨S384x256, .f32⟩
  | .hbm, ⟨112, _⟩ => ⟨S256x384, .f32⟩
  | .hbm, ⟨113, _⟩ => ⟨S256x384, .bf16⟩
  | .hbm, ⟨114, _⟩ => ⟨S1x384x128, .f32⟩
  | .hbm, ⟨115, _⟩ => ⟨S384x128, .f32⟩
  | .hbm, ⟨116, _⟩ => ⟨S128x384, .f32⟩
  | .hbm, ⟨117, _⟩ => ⟨S128x384, .bf16⟩
  | .hbm, ⟨118, _⟩ => ⟨S1x256, .f32⟩
  | .hbm, ⟨119, _⟩ => ⟨S256, .f32⟩
  | .hbm, ⟨120, _⟩ => ⟨S1x384, .f32⟩
  | .hbm, ⟨121, _⟩ => ⟨S384, .f32⟩
  | .hbm, ⟨122, _⟩ => ⟨S1x384, .f32⟩
  | .hbm, ⟨123, _⟩ => ⟨S384, .f32⟩
  | .hbm, ⟨124, _⟩ => ⟨S1x256, .f32⟩
  | .hbm, ⟨125, _⟩ => ⟨S1x384, .f32⟩
  | .hbm, ⟨126, _⟩ => ⟨S1x384, .f32⟩
  | .hbm, ⟨127, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .bf16⟩
  | .local _ .vmem, ⟨7, _⟩ => ⟨S2000x128, .bf16⟩
  | .local _ .vmem, ⟨8, _⟩ => ⟨S384x256, .bf16⟩
  | .local _ .vmem, ⟨9, _⟩ => ⟨S1x256, .f32⟩
  | .local _ .vmem, ⟨10, _⟩ => ⟨S256x384, .bf16⟩
  | .local _ .vmem, ⟨11, _⟩ => ⟨S1x384, .f32⟩
  | .local _ .vmem, ⟨12, _⟩ => ⟨S128x384, .bf16⟩
  | .local _ .vmem, ⟨13, _⟩ => ⟨S1x384, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x128, .bf16⟩
  | .local _ .vmem, ⟨23, _⟩ => ⟨S2000x128, .bf16⟩
  | .local _ .vmem, ⟨24, _⟩ => ⟨S384x256, .bf16⟩
  | .local _ .vmem, ⟨25, _⟩ => ⟨S1x256, .f32⟩
  | .local _ .vmem, ⟨26, _⟩ => ⟨S256x384, .bf16⟩
  | .local _ .vmem, ⟨27, _⟩ => ⟨S1x384, .f32⟩
  | .local _ .vmem, ⟨28, _⟩ => ⟨S128x384, .bf16⟩
  | .local _ .vmem, ⟨29, _⟩ => ⟨S1x384, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v41 : Ref sig .tc := ⟨.hbm, 101, rfl⟩
abbrev main_cst_5 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S384x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x384 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x384 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S2x256x384_S1x256x384_0_0_0 : S2x256x384.Slices ![0, 0, 0] S1x256x384
  shapeCasts_S1x256x384_S256x384 : S1x256x384.ShapeCasts S256x384
  transposes_S256x384_S384x256_1_0 : S256x384.Transposes [1, 0] S384x256
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S2x256_S1x256_0_0 : S2x256.Slices ![0, 0] S1x256
  shapeCasts_S1x256_S256 : S1x256.ShapeCasts S256
  slices_S2x384_S1x384_0_0 : S2x384.Slices ![0, 0] S1x384
  shapeCasts_S1x384_S384 : S1x384.ShapeCasts S384
  shapeCasts_S256_S1x256 : S256.ShapeCasts S1x256
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x128_S2000x384_d1 : Shape.Concatenates [S2000x128, S2000x128, S2000x128] S2000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2x256x384_S1x256x384_1_0_0 : S2x256x384.Slices ![1, 0, 0] S1x256x384
  slices_S2x384x256_S1x384x256_1_0_0 : S2x384x256.Slices ![1, 0, 0] S1x384x256
  slices_S2x384x128_S1x384x128_1_0_0 : S2x384x128.Slices ![1, 0, 0] S1x384x128
  slices_S2x256_S1x256_1_0 : S2x256.Slices ![1, 0] S1x256
  slices_S2x384_S1x384_1_0 : S2x384.Slices ![1, 0] S1x384
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S2000x384_S384x256_S2000x256_1_0_0_1_n_n_wf : DotDims.WF S2000x384 S384x256 S2000x256 [1] [0] [0] [1] [] []
  dot_S2000x256_S256x384_S2000x384_1_0_0_1_n_n_wf : DotDims.WF S2000x256 S256x384 S2000x384 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x256.size a ≤ S384x256.size a
  hwx0_4 : ∀ i : grid0.Coords, EltTy.bits .bf16 = 32 ∨ (Rect.block (s := S384x256) S384x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x384.size a ≤ S256x384.size a
  hwx0_6 : ∀ i : grid0.Coords, EltTy.bits .bf16 = 32 ∨ (Rect.block (s := S256x384) S256x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .bf16 = 32 ∨ (Rect.block (s := S128x384) S128x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x256.size a ≤ S384x256.size a
  hwx1_4 : ∀ i : grid1.Coords, EltTy.bits .bf16 = 32 ∨ (Rect.block (s := S384x256) S384x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x384.size a ≤ S256x384.size a
  hwx1_6 : ∀ i : grid1.Coords, EltTy.bits .bf16 = 32 ∨ (Rect.block (s := S256x384) S256x384.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x384.size a ≤ S128x384.size a
  hwx1_8 : ∀ i : grid1.Coords, EltTy.bits .bf16 = 32 ∨ (Rect.block (s := S128x384) S128x384.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x384.size a ≤ S1x384.size a
  hwx1_9 : ∀ i : grid1.Coords, EltTy.bits .f32 = 32 ∨ (Rect.block (s := S1x384) S1x384.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x384_S2000x384_1_0_0_1_n_n : DotDims S2000x256 S256x384 S2000x384 where
  lhsContracting := [1]
  rhsContracting := [0]
  lhsNonContracting := [0]
  rhsNonContracting := [1]
  lhsBatch := []
  rhsBatch := []
  wf := dot_S2000x256_S256x384_S2000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S384x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S256x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S384x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S256x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S128x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65) S1x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v66) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S2x256x384 : Shape := ⟨3, ![2, 256, 384]⟩
abbrev S2x256 : Shape := ⟨2, ![2, 256]⟩
abbrev S2x384x256 : Shape := ⟨3, ![2, 384, 256]⟩
abbrev S2x384x128 : Shape := ⟨3, ![2, 384, 128]⟩
abbrev S2x384 : Shape := ⟨2, ![2, 384]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x384 : Shape := ⟨2, ![50000, 384]⟩
abbrev S1x256x384 : Shape := ⟨3, ![1, 256, 384]⟩
abbrev S256x384 : Shape := ⟨2, ![256, 384]⟩
abbrev S384x256 : Shape := ⟨2, ![384, 256]⟩
abbrev S50000x256 : Shape := ⟨2, ![50000, 256]⟩
abbrev S1x256 : Shape := ⟨2, ![1, 256]⟩
abbrev S256 : Shape := ⟨1, ![256]⟩
abbrev S1x384x256 : Shape := ⟨3, ![1, 384, 256]⟩
abbrev S1x384 : Shape := ⟨2, ![1, 384]⟩
abbrev S384 : Shape := ⟨1, ![384]⟩
abbrev S1x384x128 : Shape := ⟨3, ![1, 384, 128]⟩
abbrev S384x128 : Shape := ⟨2, ![384, 128]⟩
abbrev S128x384 : Shape := ⟨2, ![128, 384]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S2x256x384, .f32⟩
  | 5 => ⟨S2x256, .f32⟩
  | 6 => ⟨S2x384x256, .f32⟩
  | 7 => ⟨S2x384x128, .f32⟩
  | 8 => ⟨S2x384, .f32⟩
  | 9 => ⟨S2x384, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x128, .f32⟩
  | 41 => ⟨S50000x384, .f32⟩
  | 42 => ⟨S1x256x384, .f32⟩
  | 43 => ⟨S256x384, .f32⟩
  | 44 => ⟨S384x256, .f32⟩
  | 45 => ⟨S50000x256, .f32⟩
  | 46 => ⟨S1x256, .f32⟩
  | 47 => ⟨S256, .f32⟩
  | 48 => ⟨S1x256, .f32⟩
  | 49 => ⟨S50000x256, .f32⟩
  | 50 => ⟨S50000x256, .f32⟩
  | 51 => ⟨S1x384x256, .f32⟩
  | 52 => ⟨S384x256, .f32⟩
  | 53 => ⟨S256x384, .f32⟩
  | 54 => ⟨S50000x384, .f32⟩
  | 55 => ⟨S1x384, .f32⟩
  | 56 => ⟨S384, .f32⟩
  | 57 => ⟨S1x384, .f32⟩
  | 58 => ⟨S50000x384, .f32⟩
  | 59 => ⟨S50000x384, .f32⟩
  | 60 => ⟨S1x384x128, .f32⟩
  | 61 => ⟨S384x128, .f32⟩
  | 62 => ⟨S128x384, .f32⟩
  | 63 => ⟨S50000x384, .f32⟩
  | 64 => ⟨S1x384, .f32⟩
  | 65 => ⟨S384, .f32⟩
  | 66 => ⟨S1x384, .f32⟩
  | 67 => ⟨S50000x384, .f32⟩
  | 68 => ⟨S50000x384, .f32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S50000x128, .f32⟩
  | 117 => ⟨S50000x384, .f32⟩
  | 118 => ⟨S1x256x384, .f32⟩
  | 119 => ⟨S256x384, .f32⟩
  | 120 => ⟨S384x256, .f32⟩
  | 121 => ⟨S50000x256, .f32⟩
  | 122 => ⟨S1x256, .f32⟩
  | 123 => ⟨S256, .f32⟩
  | 124 => ⟨S1x256, .f32⟩
  | 125 => ⟨S50000x256, .f32⟩
  | 126 => ⟨S50000x256, .f32⟩
  | 127 => ⟨S1x384x256, .f32⟩
  | _ => ⟨S50000x128, .f32⟩

abbrev hbmTy0_1 (i : Nat) : BufTy := match i % 128 with
  | 0 => ⟨S384x256, .f32⟩
  | 1 => ⟨S256x384, .f32⟩
  | 2 => ⟨S50000x384, .f32⟩
  | 3 => ⟨S1x384, .f32⟩
  | 4 => ⟨S384, .f32⟩
  | 5 => ⟨S1x384, .f32⟩
  | 6 => ⟨S50000x384, .f32⟩
  | 7 => ⟨S50000x384, .f32⟩
  | 8 => ⟨S1x384x128, .f32⟩
  | 9 => ⟨S384x128, .f32⟩
  | 10 => ⟨S128x384, .f32⟩
  | 11 => ⟨S50000x384, .f32⟩
  | 12 => ⟨S1x384, .f32⟩
  | 13 => ⟨S384, .f32⟩
  | 14 => ⟨S1x384, .f32⟩
  | 15 => ⟨S50000x384, .f32⟩
  | 16 => ⟨S50000x384, .f32⟩
  | 17 => ⟨S50000x128, .f32⟩
  | 18 => ⟨S50000x128, .f32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_10 : Ref sig .tc := ⟨.hbm, 102, rfl⟩
abbrev main_v80 : Ref sig .tc := ⟨.hbm, 103, rfl⟩
abbrev main_v81 : Ref sig .tc := ⟨.hbm, 104, rfl⟩
abbrev main_c_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_13 : Ref sig .tc := ⟨.hbm, 154, rfl⟩
abbrev main_v129 : Ref sig .tc := ⟨.hbm, 155, rfl⟩
abbrev main_v130 : Ref sig .tc := ⟨.hbm, 156, rfl⟩
abbrev main_cst_14 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_15 : Ref sig .tc := ⟨.hbm, 163, rfl⟩
abbrev main_v136 : Ref sig .tc := ⟨.hbm, 164, rfl⟩
abbrev main_v137 : Ref sig .tc := ⟨.hbm, 165, rfl⟩
abbrev main_cst_16 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_17 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  slices_S2x256x384_S1x256x384_0_0_0 : S2x256x384.Slices ![0, 0, 0] S1x256x384
  shapeCasts_S1x256x384_S256x384 : S1x256x384.ShapeCasts S256x384
  transposes_S256x384_S384x256_1_0 : S256x384.Transposes [1, 0] S384x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x384x256_S1x384x256_0_0_0 : S2x384x256.Slices ![0, 0, 0] S1x384x256
  shapeCasts_S1x384x256_S384x256 : S1x384x256.ShapeCasts S384x256
  transposes_S384x256_S256x384_1_0 : S384x256.Transposes [1, 0] S256x384
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x256x384_S1x256x384_1_0_0 : S2x256x384.Slices ![1, 0, 0] S1x256x384
  slices_S2x256_S1x256_1_0 : S2x256.Slices ![1, 0] S1x256
  slices_S2x384x256_S1x384x256_1_0_0 : S2x384x256.Slices ![1, 0, 0] S1x384x256
  slices_S2x384_S1x384_1_0 : S2x384.Slices ![1, 0] S1x384
  slices_S2x384x128_S1x384x128_1_0_0 : S2x384x128.Slices ![1, 0, 0] S1x384x128
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S50000x384_S384x256_S50000x256_1_0_0_1_n_n_wf : DotDims.WF S50000x384 S384x256 S50000x256 [1] [0] [0] [1] [] []
  dot_S50000x256_S256x384_S50000x384_1_0_0_1_n_n_wf : DotDims.WF S50000x256 S256x384 S50000x384 [1] [0] [0] [1] [] []
  dot_S50000x128_S128x384_S50000x384_1_0_0_1_n_n_wf : DotDims.WF S50000x128 S128x384 S50000x384 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def dot_S50000x256_S256x384_S50000x384_1_0_0_1_n_n : DotDims S50000x256 S256x384 S50000x384 where
  lhsContracting := [1]
  rhsContracting := [0]
  lhsNonContracting := [0]
  rhsNonContracting := [1]
  lhsBatch := []
  rhsBatch := []
  wf := dot_S50000x256_S256x384_S50000x384_1_0_0_1_n_n_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  The mathematics both programs compute, one output row at a time.

  A node's new state is a GRU cell applied to the activation of a linear message layer.  For a node with
  state row `h`, neighbour mean `s` and edge mean `e` (each 128 wide):
    x  = [h, s, e]                       (384 wide)
    a  = x · Wm + bm                     (256 wide)
    gi = a · Wi + bi,  gh = h · Wh + bh  (384 wide, read as three bands r | z | n of 128)
    r  = σ(gi_r + gh_r),  z = σ(gi_z + gh_z),  n = tanh(gi_n + r · gh_n)
    h' = (1 − z) · n + z · h
  over the extended reals, σ the logistic function.  The weights are taken already transposed, input index first.
-/
import Idealize.ShloMosaic.PureOps.Ideal
import Idealize.ShloMosaic.Lib.ValueIdx

noncomputable section

namespace Cert.Spec

open Idealize.ShloMosaic

/-- Three rows of 128 laid end to end. -/
def cat3 (h s e : Fin 128 → EReal) (k : Fin 384) : EReal :=
  if h1 : k.val < 128 then h ⟨k.val, h1⟩
  else if h2 : k.val < 256 then s ⟨k.val - 128, by omega⟩
  else e ⟨k.val - 256, by omega⟩

/-- A row times a matrix, plus a bias row: entry `o` is `∑ₖ xₖ · Wₖₒ + bₒ`. -/
def lin {K O : Nat} (x : Fin K → EReal) (W : Fin K → Fin O → EReal) (b : Fin O → EReal) (o : Fin O) : EReal :=
  (∑ k, x k * W k o) + b o

/-- Entry `q` of the node's new state. -/
def cell (h s e : Fin 128 → EReal) (Wm : Fin 384 → Fin 256 → EReal) (bm : Fin 256 → EReal)
    (Wi : Fin 256 → Fin 384 → EReal) (bi : Fin 384 → EReal) (Wh : Fin 128 → Fin 384 → EReal) (bh : Fin 384 → EReal)
    (q : Fin 128) : EReal :=
  (1 - Ideal.logistic (lin (lin (cat3 h s e) Wm bm) Wi bi ⟨q.val + 128, by omega⟩ + lin h Wh bh ⟨q.val + 128, by omega⟩))
      * Ideal.tanh (lin (lin (cat3 h s e) Wm bm) Wi bi ⟨q.val + 256, by omega⟩
          + Ideal.logistic (lin (lin (cat3 h s e) Wm bm) Wi bi ⟨q.val, by omega⟩ + lin h Wh bh ⟨q.val, by omega⟩)
            * lin h Wh bh ⟨q.val + 256, by omega⟩)
    + Ideal.logistic (lin (lin (cat3 h s e) Wm bm) Wi bi ⟨q.val + 128, by omega⟩ + lin h Wh bh ⟨q.val + 128, by omega⟩) * h q

end Cert.Spec

end
-- ==== Proof.KBody.lean ====
/-
  The kernel's body, read at one entry of its output block: row `p` of the block is the GRU cell (Spec.lean) of row `p`
  of the input blocks, the neighbour sum scaled by the row's reciprocal degree.
-/
import proofs.«411318_j68908455297282_3_alg».proof.Proof.Gen.KernelIdeal.Frame
import proofs.«411318_j68908455297282_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KBody

open Idealize.ShloMosaic Idealize.ShloMosaic.ValueIdx Cert.KernelIdeal

/-! ## A plain matrix product read at an entry

A rank-two product whose dimension numbers contract the left operand's columns against the right operand's rows, with no
batch axis, accumulated into zero, is at entry (p, o) the sum over the shared axis of the products of row p and column o. -/

section Product
variable {M K N : Nat} (d : DotDims ⟨2, ![M, K]⟩ ⟨2, ![K, N]⟩ ⟨2, ![M, N]⟩)

/-- Two coordinates of one index at equal positions are equal. -/
theorem coord_congr {s : Shape} (j : s.Idx) (a b : Nat) (ha : a < s.rank) (hb : b < s.rank) (h : a = b) :
    (j ⟨a, ha⟩).val = (j ⟨b, hb⟩).val := by subst h; rfl

/-- The left operand's row is the entry's row. -/
theorem lhsIdx_row (hlb : d.lhsBatch = []) (hln : d.lhsNonContracting = [0])
    (j : (⟨2, ![M, N]⟩ : Shape).Idx) (q : d.contr.Idx) : (d.lhsIdx j q 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ _ _ (by simp [hlb, hln])

/-- The right operand's column is the entry's column. -/
theorem rhsIdx_col (hlb : d.lhsBatch = []) (hln : d.lhsNonContracting = [0]) (hrb : d.rhsBatch = []) (hrn : d.rhsNonContracting = [1])
    (j : (⟨2, ![M, N]⟩ : Shape).Idx) (q : d.contr.Idx) : (d.rhsIdx j q 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- The contraction runs over one axis … -/
theorem contr_rank (hlc : d.lhsContracting = [1]) : d.contr.rank = 1 := by rw [d.rank_contr, hlc]; rfl

/-- … of the shared extent. -/
theorem contr_size (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- The product into zero at entry (p, o): the sum over the shared axis of row p of the left times column o of the right. -/
theorem product_apply (hlb : d.lhsBatch = []) (hln : d.lhsNonContracting = [0]) (hlc : d.lhsContracting = [1])
    (hrb : d.rhsBatch = []) (hrn : d.rhsNonContracting = [1]) (hrc : d.rhsContracting = [0]) {φ₁ φ₂ : FTy}
    (l : FVec Ideal ⟨2, ![M, K]⟩ φ₁) (r : FVec Ideal ⟨2, ![K, N]⟩ φ₂) (p : Fin M) (o : Fin N) :
    matmul d none l r (constant (F := Ideal) ⟨2, ![M, N]⟩ .f32 0x00000000#32) (ix2 p o)
      = ∑ k : Fin K, l (ix2 p k) * r (ix2 k o) := by
  have hr := contr_rank d hlc
  have hs := contr_size d hlc
  refine (Ideal.matmul_constant_zero_apply d none l r (ix2 p o)).trans ?_
  rw [← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p o) ((contrEquiv1 d K hr hs).symm k) = ix2 k o := funext fun a => Fin.ext (by
    match a with
    | ⟨0, _⟩ => exact (d.rhsIdx_val_of_single hrc _ _).trans hk
    | ⟨1, _⟩ => exact rhsIdx_col d hlb hln hrb hrn _ _)
  rw [el, er]

end Product

/-! ## The layout operations of the cell read at an entry -/

/-- Three row tiles of 128 columns laid side by side, read at (p, k): the tile that holds column k, each tile's row p
    named by the caller. -/
theorem cat_apply (A B C : S2000x128.Idx → EReal) (h : Shape.Concatenates [S2000x128, S2000x128, S2000x128] S2000x384 1)
    (p : Fin 2000) (k : Fin 384) (a b c : Fin 128 → EReal) (ha : ∀ i, A (ix2 p i) = a i) (hb : ∀ i, B (ix2 p i) = b i)
    (hc : ∀ i, C (ix2 p i) = c i) :
    concatenate S2000x384 1 [⟨S2000x128, A⟩, ⟨S2000x128, B⟩, ⟨S2000x128, C⟩] h (ix2 p k) = Cert.Spec.cat3 a b c k := by
  unfold Cert.Spec.cat3
  by_cases h1 : k.val < 128
  · rw [dif_pos h1, ← ha]
    exact concatenate_apply_piece (t := S2000x384) 1 [⟨S2000x128, A⟩, ⟨S2000x128, B⟩, ⟨S2000x128, C⟩] h (ix2 p k) 0 (by simp)
      S2000x128 A rfl rfl 0 rfl (ix2 p ⟨k.val, h1⟩)
      (fun b hb => by match b with | ⟨0, _⟩ => rfl | ⟨1, _⟩ => exact absurd rfl hb) (by show 0 + k.val = k.val; omega)
  · rw [dif_neg h1]
    by_cases h2 : k.val < 256
    · rw [dif_pos h2, ← hb]
      exact concatenate_apply_piece (t := S2000x384) 1 [⟨S2000x128, A⟩, ⟨S2000x128, B⟩, ⟨S2000x128, C⟩] h (ix2 p k) 1 (by simp)
        S2000x128 B rfl rfl 128 rfl (ix2 p ⟨k.val - 128, by omega⟩)
        (fun b hb => by match b with | ⟨0, _⟩ => rfl | ⟨1, _⟩ => exact absurd rfl hb)
        (by show 128 + (k.val - 128) = k.val; omega)
    · rw [dif_neg h2, ← hc]
      have hk := k.isLt
      exact concatenate_apply_piece (t := S2000x384) 1 [⟨S2000x128, A⟩, ⟨S2000x128, B⟩, ⟨S2000x128, C⟩] h (ix2 p k) 2 (by simp)
        S2000x128 C rfl rfl 256 rfl (ix2 p ⟨k.val - 256, by omega⟩)
        (fun b hb => by match b with | ⟨0, _⟩ => rfl | ⟨1, _⟩ => exact absurd rfl hb)
        (by show 256 + (k.val - 256) = k.val; omega)

/-- A column broadcast across 128 columns reads the row's entry. -/
theorem bcast_col_apply (v : S2000x1.Idx → EReal) (h : S2000x1.Broadcasts S2000x128) (p : Fin 2000) (q : Fin 128) :
    broadcastTo S2000x128 v h (ix2 p q) = v (ix2 p 0) := by
  refine broadcastTo_apply v h (ix2 p q) (ix2 p (0 : Fin 1)) fun ax => ?_
  match ax with
  | ⟨0, _⟩ => rfl
  | ⟨1, _⟩ => rfl

/-- The neighbour sum scaled by the row's reciprocal degree, read at (p, c). -/
theorem scaled_apply (s : FVec Ideal S2000x128 .f32) (r : FVec Ideal S2000x1 .f32) (h1 : S2000x128.ShapeCasts S2000x128)
    (h2 : S2000x1.ShapeCasts S2000x1) (h3 : S2000x1.Broadcasts S2000x128) (h4 : FTy.bits .bf16 < FTy.bits .f32)
    (p : Fin 2000) (c : Fin 128) :
    (truncf .bf16 (mulf (shapeCast S2000x128 s h1) (broadcastTo S2000x128 (shapeCast S2000x1 r h2) h3)) h4
        : FVec Ideal S2000x128 .bf16) (ix2 p c) = s (ix2 p c) * r (ix2 p 0) := by
  rw [shapeCast_self, shapeCast_self]
  exact congrArg (s (ix2 p c) * ·) (bcast_col_apply r h3 p c)

/-- A linear layer — a row block times a weight matrix into zero, plus a bias row broadcast down the rows — read at
    (p, o): the specification's row-times-matrix-plus-bias of row p, the row named by the caller. -/
theorem lin_apply {M K N : Nat} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0]) {φ₁ φ₂ : FTy}
    (l : FVec Ideal ⟨2, ![M, K]⟩ φ₁) (W : FVec Ideal ⟨2, ![K, N]⟩ φ₂) (b : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (o : Fin N)
    (x : Fin K → EReal) (hx : ∀ k, l (ix2 p k) = x k) :
    addf (matmul d none l (shapeCast ⟨2, ![K, N]⟩ W hW) (constant (F := Ideal) ⟨2, ![M, N]⟩ .f32 0x00000000#32))
        (broadcastTo ⟨2, ![M, N]⟩ (shapeCast ⟨2, ![1, N]⟩ b hb) hbc) (ix2 p o)
      = Cert.Spec.lin x (fun k o => W (ix2 k o)) (fun o => b (ix2 0 o)) o := by
  rw [shapeCast_self, shapeCast_self]
  show matmul d none l W _ (ix2 p o) + broadcastTo _ b hbc (ix2 p o) = _
  rw [product_apply d hlb hln hlc hrb hrn hrc, broadcastTo_1b_ab_apply]
  unfold Cert.Spec.lin
  exact congrArg (· + b (ix2 0 o)) (Finset.sum_congr rfl fun k _ => by rw [hx k])

/-! ## Region 0's payloads read at an entry -/

/-- The input projection of the message layer's activation: row p is the two linear layers of the concatenated row. -/
theorem pay3_apply (v0 v2 : Vec Ideal S2000x128 .f32) (v4 : Vec Ideal S2000x1 .f32) (v9 : Vec Ideal S2000x128 .bf16)
    (v12 : Vec Ideal S384x256 .bf16) (v15 : Vec Ideal S1x256 .f32) (v20 : Vec Ideal S256x384 .bf16) (v23 : Vec Ideal S1x384 .f32)
    (p : Fin 2000) (j : Fin 384) :
    Gen.k0_pay3 v0 v2 v4 v9 v12 v15 v20 v23 (ix2 p j)
      = Cert.Spec.lin (Cert.Spec.lin (Cert.Spec.cat3 (fun k => v0 (ix2 p k)) (fun k => v2 (ix2 p k) * v4 (ix2 p 0)) (fun k => v9 (ix2 p k)))
          (fun k o => v12 (ix2 k o)) (fun o => v15 (ix2 0 o))) (fun o j => v20 (ix2 o j)) (fun j => v23 (ix2 0 j)) j := by
  unfold Gen.k0_pay3
  refine lin_apply dot_S2000x256_S256x384_S2000x384_1_0_0_1_n_n rfl rfl rfl rfl rfl rfl _ v20 v23 _ _ _ p j _ fun o => ?_
  refine (truncf_apply (φ := .f32) (ψ := .bf16) _ Gen.bitsLt_bf16_f32 (ix2 p o)).trans ?_
  refine lin_apply dot_S2000x384_S384x256_S2000x256_1_0_0_1_n_n rfl rfl rfl rfl rfl rfl _ v12 v15 _ _ _ p o _ fun k => ?_
  exact cat_apply _ _ _ _ p k _ _ _ (fun _ => rfl) (fun c => scaled_apply v2 v4 _ _ _ _ p c)
    (fun c => congrFun (shapeCast_self v9 _) (ix2 p c))

/-- The hidden projection: row p is the linear layer of the state row. -/
theorem pay4_apply (v0 : Vec Ideal S2000x128 .f32) (v27 : Vec Ideal S128x384 .bf16) (v30 : Vec Ideal S1x384 .f32)
    (p : Fin 2000) (j : Fin 384) :
    Gen.k0_pay4 v0 v27 v30 (ix2 p j)
      = Cert.Spec.lin (fun k => v0 (ix2 p k)) (fun k j => v27 (ix2 k j)) (fun j => v30 (ix2 0 j)) j := by
  unfold Gen.k0_pay4
  exact lin_apply dot_S2000x128_S128x384_S2000x384_1_0_0_1_n_n rfl rfl rfl rfl rfl rfl _ v27 v30 _ _ _ p j _ fun _ => rfl

/-- The reset band of the input projection. -/
theorem pay5_apply (v0 v2 : Vec Ideal S2000x128 .f32) (v4 : Vec Ideal S2000x1 .f32) (v9 : Vec Ideal S2000x128 .bf16)
    (v12 : Vec Ideal S384x256 .bf16) (v15 : Vec Ideal S1x256 .f32) (v20 : Vec Ideal S256x384 .bf16) (v23 : Vec Ideal S1x384 .f32)
    (p : Fin 2000) (q : Fin 128) :
    Gen.k0_pay5 v0 v2 v4 v9 v12 v15 v20 v23 (ix2 p q)
      = Gen.k0_pay3 v0 v2 v4 v9 v12 v15 v20 v23 (ix2 p ⟨q.val, by omega⟩) := by
  unfold Gen.k0_pay5
  exact slice2_axis1_apply 0 _ _ p q ⟨q.val, by omega⟩ (Nat.zero_add _).symm

/-- The update band of the input projection. -/
theorem pay6_apply (v0 v2 : Vec Ideal S2000x128 .f32) (v4 : Vec Ideal S2000x1 .f32) (v9 : Vec Ideal S2000x128 .bf16)
    (v12 : Vec Ideal S384x256 .bf16) (v15 : Vec Ideal S1x256 .f32) (v20 : Vec Ideal S256x384 .bf16) (v23 : Vec Ideal S1x384 .f32)
    (p : Fin 2000) (q : Fin 128) :
    Gen.k0_pay6 v0 v2 v4 v9 v12 v15 v20 v23 (ix2 p q)
      = Gen.k0_pay3 v0 v2 v4 v9 v12 v15 v20 v23 (ix2 p ⟨q.val + 128, by omega⟩) := by
  unfold Gen.k0_pay6
  exact slice2_axis1_apply 128 _ _ p q ⟨q.val + 128, by omega⟩ (Nat.add_comm _ _)

/-- The gates and the new state at (p, q), from the two projections' bands at columns q, q + 128 and q + 256. -/
theorem pay1_apply (v0 : Vec Ideal S2000x128 .f32) (v26 v33 : FVec Ideal S2000x384 .f32) (v34 v35 : FVec Ideal S2000x128 .f32)
    (p : Fin 2000) (q : Fin 128) :
    Gen.k0_pay1 v0 v26 v33 v34 v35 (ix2 p q)
      = (1 - Ideal.logistic (v35 (ix2 p q) + v33 (ix2 p ⟨q.val + 128, by omega⟩)))
          * Ideal.tanh (v26 (ix2 p ⟨q.val + 256, by omega⟩)
              + Ideal.logistic (v34 (ix2 p q) + v33 (ix2 p ⟨q.val, by omega⟩)) * v33 (ix2 p ⟨q.val + 256, by omega⟩))
        + Ideal.logistic (v35 (ix2 p q) + v33 (ix2 p ⟨q.val + 128, by omega⟩)) * v0 (ix2 p q) := by
  have e26 := slice2_axis1_apply 256 v26 Gen.slices_S2000x384_o0_256_S2000x128 p q ⟨q.val + 256, by omega⟩ (Nat.add_comm _ _)
  have e0 := slice2_axis1_apply 0 v33 Gen.slices_S2000x384_o0_0_S2000x128 p q ⟨q.val, by omega⟩ (Nat.zero_add _).symm
  have e128 := slice2_axis1_apply 128 v33 Gen.slices_S2000x384_o0_128_S2000x128 p q ⟨q.val + 128, by omega⟩ (Nat.add_comm _ _)
  have e256 := slice2_axis1_apply 256 v33 Gen.slices_S2000x384_o0_256_S2000x128 p q ⟨q.val + 256, by omega⟩ (Nat.add_comm _ _)
  rw [← e26, ← e0, ← e128, ← e256, ← Ideal.ofBits_one_f32]
  rfl

/-- Region 0's output block at (p, q). -/
theorem out0_apply (x0 x1 : Vec Ideal S2000x128 .f32) (x2 : Vec Ideal S2000x1 .f32) (x3 : Vec Ideal S2000x128 .bf16)
    (x4 : Vec Ideal S384x256 .bf16) (x5 : Vec Ideal S1x256 .f32) (x6 : Vec Ideal S256x384 .bf16) (x7 : Vec Ideal S1x384 .f32)
    (x8 : Vec Ideal S128x384 .bf16) (x9 : Vec Ideal S1x384 .f32) (p : Fin 2000) (q : Fin 128) :
    Gen.out0_10 (F := Ideal) x0 x1 x2 x3 x4 x5 x6 x7 x8 x9 (ix2 p q)
      = Cert.Spec.cell (fun k => x0 (ix2 p k)) (fun k => x1 (ix2 p k) * x2 (ix2 p 0)) (fun k => x3 (ix2 p k))
          (fun k o => x4 (ix2 k o)) (fun o => x5 (ix2 0 o)) (fun o j => x6 (ix2 o j)) (fun j => x7 (ix2 0 j))
          (fun k j => x8 (ix2 k j)) (fun j => x9 (ix2 0 j)) q := by
  have hz : (![0, 0] : Fin 2 → Nat) = fun _ => 0 := funext fun a => by match a with | ⟨0, _⟩ => rfl | ⟨1, _⟩ => rfl
  unfold Gen.out0_10
  rw [View.canon_unit_zero hz]
  simp only [View.ld_unit_zero (S := S2000x128) hz, View.ld_unit_zero (S := S2000x1) hz, View.ld_unit_zero (S := S384x256) hz,
    View.ld_unit_zero (S := S1x256) hz, View.ld_unit_zero (S := S256x384) hz, View.ld_unit_zero (S := S1x384) hz,
    View.ld_unit_zero (S := S128x384) hz]
  rw [pay1_apply, pay5_apply, pay6_apply, pay3_apply, pay3_apply, pay3_apply, pay4_apply, pay4_apply, pay4_apply]
  rfl

/-! ## Region 1's payloads read at an entry -/

/-- The state block as the products read it. -/
theorem r1_pay3_apply (v0 : Vec Ideal S2000x128 .f32) (p : Fin 2000) (k : Fin 128) : Gen.k1_pay3 v0 (ix2 p k) = v0 (ix2 p k) := by
  unfold Gen.k1_pay3 Gen.k1_pay2
  exact congrFun (shapeCast_self v0 _) (ix2 p k)

/-- The input projection of the message layer's activation: row p is the two linear layers of the concatenated row. -/
theorem r1_pay4_apply (v0 v3 : Vec Ideal S2000x128 .f32) (v5 : Vec Ideal S2000x1 .f32) (v10 : Vec Ideal S2000x128 .bf16)
    (v13 : Vec Ideal S384x256 .bf16) (v16 : Vec Ideal S1x256 .f32) (v21 : Vec Ideal S256x384 .bf16) (v24 : Vec Ideal S1x384 .f32)
    (p : Fin 2000) (j : Fin 384) :
    Gen.k1_pay4 v0 v3 v5 v10 v13 v16 v21 v24 (ix2 p j)
      = Cert.Spec.lin (Cert.Spec.lin (Cert.Spec.cat3 (fun k => v0 (ix2 p k)) (fun k => v3 (ix2 p k) * v5 (ix2 p 0)) (fun k => v10 (ix2 p k)))
          (fun k o => v13 (ix2 k o)) (fun o => v16 (ix2 0 o))) (fun o j => v21 (ix2 o j)) (fun j => v24 (ix2 0 j)) j := by
  unfold Gen.k1_pay4
  refine lin_apply dot_S2000x256_S256x384_S2000x384_1_0_0_1_n_n rfl rfl rfl rfl rfl rfl _ v21 v24 _ _ _ p j _ fun o => ?_
  refine (truncf_apply (φ := .f32) (ψ := .bf16) _ Gen.bitsLt_bf16_f32 (ix2 p o)).trans ?_
  refine lin_apply dot_S2000x384_S384x256_S2000x256_1_0_0_1_n_n rfl rfl rfl rfl rfl rfl _ v13 v16 _ _ _ p o _ fun k => ?_
  exact cat_apply _ _ _ _ p k _ _ _ (fun c => r1_pay3_apply v0 p c) (fun c => scaled_apply v3 v5 _ _ _ _ p c)
    (fun c => congrFun (shapeCast_self v10 _) (ix2 p c))

/-- The hidden projection: row p is the linear layer of the state row. -/
theorem r1_pay5_apply (v0 : Vec Ideal S2000x128 .f32) (v28 : Vec Ideal S128x384 .bf16) (v31 : Vec Ideal S1x384 .f32)
    (p : Fin 2000) (j : Fin 384) :
    Gen.k1_pay5 v0 v28 v31 (ix2 p j)
      = Cert.Spec.lin (fun k => v0 (ix2 p k)) (fun k j => v28 (ix2 k j)) (fun j => v31 (ix2 0 j)) j := by
  unfold Gen.k1_pay5
  exact lin_apply dot_S2000x128_S128x384_S2000x384_1_0_0_1_n_n rfl rfl rfl rfl rfl rfl _ v28 v31 _ _ _ p j _
    fun k => r1_pay3_apply v0 p k

/-- The reset band of the input projection. -/
theorem r1_pay6_apply (v0 v3 : Vec Ideal S2000x128 .f32) (v5 : Vec Ideal S2000x1 .f32) (v10 : Vec Ideal S2000x128 .bf16)
    (v13 : Vec Ideal S384x256 .bf16) (v16 : Vec Ideal S1x256 .f32) (v21 : Vec Ideal S256x384 .bf16) (v24 : Vec Ideal S1x384 .f32)
    (p : Fin 2000) (q : Fin 128) :
    Gen.k1_pay6 v0 v3 v5 v10 v13 v16 v21 v24 (ix2 p q)
      = Gen.k1_pay4 v0 v3 v5 v10 v13 v16 v21 v24 (ix2 p ⟨q.val, by omega⟩) := by
  unfold Gen.k1_pay6
  exact slice2_axis1_apply 0 _ _ p q ⟨q.val, by omega⟩ (Nat.zero_add _).symm

/-- The gates and the new state at (p, q), from the two projections' bands at columns q, q + 128 and q + 256. -/
theorem r1_pay1_apply (v1 : FVec Ideal S2000x128 .f32) (v27 v34 : FVec Ideal S2000x384 .f32) (v35 : FVec Ideal S2000x128 .f32)
    (p : Fin 2000) (q : Fin 128) :
    Gen.k1_pay1 v1 v27 v34 v35 (ix2 p q)
      = (1 - Ideal.logistic (v27 (ix2 p ⟨q.val + 128, by omega⟩) + v34 (ix2 p ⟨q.val + 128, by omega⟩)))
          * Ideal.tanh (v27 (ix2 p ⟨q.val + 256, by omega⟩)
              + Ideal.logistic (v35 (ix2 p q) + v34 (ix2 p ⟨q.val, by omega⟩)) * v34 (ix2 p ⟨q.val + 256, by omega⟩))
        + Ideal.logistic (v27 (ix2 p ⟨q.val + 128, by omega⟩) + v34 (ix2 p ⟨q.val + 128, by omega⟩)) * v1 (ix2 p q) := by
  have a128 := slice2_axis1_apply 128 v27 Gen.slices_S2000x384_o0_128_S2000x128 p q ⟨q.val + 128, by omega⟩ (Nat.add_comm _ _)
  have a256 := slice2_axis1_apply 256 v27 Gen.slices_S2000x384_o0_256_S2000x128 p q ⟨q.val + 256, by omega⟩ (Nat.add_comm _ _)
  have e0 := slice2_axis1_apply 0 v34 Gen.slices_S2000x384_o0_0_S2000x128 p q ⟨q.val, by omega⟩ (Nat.zero_add _).symm
  have e128 := slice2_axis1_apply 128 v34 Gen.slices_S2000x384_o0_128_S2000x128 p q ⟨q.val + 128, by omega⟩ (Nat.add_comm _ _)
  have e256 := slice2_axis1_apply 256 v34 Gen.slices_S2000x384_o0_256_S2000x128 p q ⟨q.val + 256, by omega⟩ (Nat.add_comm _ _)
  rw [← a128, ← a256, ← e0, ← e128, ← e256, ← Ideal.ofBits_one_f32]
  rfl

/-- Region 1's output block at (p, q): the same body. -/
theorem out1_apply (x0 x1 : Vec Ideal S2000x128 .f32) (x2 : Vec Ideal S2000x1 .f32) (x3 : Vec Ideal S2000x128 .bf16)
    (x4 : Vec Ideal S384x256 .bf16) (x5 : Vec Ideal S1x256 .f32) (x6 : Vec Ideal S256x384 .bf16) (x7 : Vec Ideal S1x384 .f32)
    (x8 : Vec Ideal S128x384 .bf16) (x9 : Vec Ideal S1x384 .f32) (p : Fin 2000) (q : Fin 128) :
    Gen.out1_10 (F := Ideal) x0 x1 x2 x3 x4 x5 x6 x7 x8 x9 (ix2 p q)
      = Cert.Spec.cell (fun k => x0 (ix2 p k)) (fun k => x1 (ix2 p k) * x2 (ix2 p 0)) (fun k => x3 (ix2 p k))
          (fun k o => x4 (ix2 k o)) (fun o => x5 (ix2 0 o)) (fun o j => x6 (ix2 o j)) (fun j => x7 (ix2 0 j))
          (fun k j => x8 (ix2 k j)) (fun j => x9 (ix2 0 j)) q := by
  have hz : (![0, 0] : Fin 2 → Nat) = fun _ => 0 := funext fun a => by match a with | ⟨0, _⟩ => rfl | ⟨1, _⟩ => rfl
  unfold Gen.out1_10
  rw [View.canon_unit_zero hz]
  simp only [View.ld_unit_zero (S := S2000x128) hz, View.ld_unit_zero (S := S2000x1) hz, View.ld_unit_zero (S := S384x256) hz,
    View.ld_unit_zero (S := S1x256) hz, View.ld_unit_zero (S := S256x384) hz, View.ld_unit_zero (S := S1x384) hz,
    View.ld_unit_zero (S := S128x384) hz]
  rw [r1_pay1_apply, r1_pay6_apply, r1_pay4_apply, r1_pay4_apply, r1_pay4_apply, r1_pay5_apply, r1_pay5_apply, r1_pay5_apply]
  have e : Gen.k1_pay2 x0 (ix2 p q) = x0 (ix2 p q) := by
    unfold Gen.k1_pay2
    exact congrFun (shapeCast_self x0 _) (ix2 p q)
  rw [e]
  rfl

end Cert.KernelIdeal.KBody

end
-- ==== Proof.Blocks.lean ====
/-
  From blocks to arrays: each launch writes its output array one [2000,128] row tile per grid point, tile t being the
  body's result on row tile t of the row-tiled inputs and on the whole weight and bias arrays; the 25 tiles cover the
  array, so every entry (n, q) of the array after the launch is the GRU cell of row n of the launch's input arrays.
-/
import proofs.«411318_j68908455297282_3_alg».proof.Proof.Gen.KernelIdeal.Frame
import proofs.«411318_j68908455297282_3_alg».proof.Proof.KBody
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal
open Idealize.ShloMosaic.Pipeline (Dat Cfg Window)

variable (V : (c : Dev nD) → (b : Ref sig .tc) → Buf (Elt Ideal) ((c : Thread nD τ).loc b))

/-- An array read at its literal type. -/
abbrev rd {S : Shape} {φ : FTy} (x : FVec Ideal S φ) : S.Idx → EReal := x

/-- The cell is a function of its ten arguments: equal arguments give equal entries. -/
theorem cell_congr {h h' s s' e e' : Fin 128 → EReal} {Wm Wm' : Fin 384 → Fin 256 → EReal} {bm bm' : Fin 256 → EReal}
    {Wi Wi' : Fin 256 → Fin 384 → EReal} {bi bi' : Fin 384 → EReal} {Wh Wh' : Fin 128 → Fin 384 → EReal}
    {bh bh' : Fin 384 → EReal} {q q' : Fin 128} (e0 : h = h') (e1 : s = s') (e2 : e = e') (e3 : Wm = Wm') (e4 : bm = bm')
    (e5 : Wi = Wi') (e6 : bi = bi') (e7 : Wh = Wh') (e8 : bh = bh') (e9 : q = q') :
    Cert.Spec.cell h s e Wm bm Wi bi Wh bh q = Cert.Spec.cell h' s' e' Wm' bm' Wi' bi' Wh' bh' q' := by
  subst e0 e1 e2 e3 e4 e5 e6 e7 e8 e9; rfl

/-! ## The first launch -/

/-- Entry (n, q) of the array the first launch leaves: the cell of row n of the arrays it is entered with. -/
abbrev row0 (c : Dev nD) (n : Fin 50000) (q : Fin 128) : EReal := Cert.Spec.cell
      (fun k => (V c main_arg0 : FVec Ideal S50000x128 .f32) (ix2 n k))
      (fun k => rd (S := S50000x128) (φ := .f32) (V c main_v18) (ix2 n k) * rd (S := S50000x1) (φ := .f32) (V c main_v8) (ix2 n 0))
      (fun k => (V c main_v14 : FVec Ideal S50000x128 .bf16) (ix2 n k))
      (fun k o => (V c main_v22 : FVec Ideal S384x256 .bf16) (ix2 k o))
      (fun o => (V c main_v37 : FVec Ideal S1x256 .f32) (ix2 0 o))
      (fun o j => (V c main_v26 : FVec Ideal S256x384 .bf16) (ix2 o j))
      (fun j => (V c main_v38 : FVec Ideal S1x384 .f32) (ix2 0 j))
      (fun k j => (V c main_v30 : FVec Ideal S128x384 .bf16) (ix2 k j))
      (fun j => (V c main_v39 : FVec Ideal S1x384 .f32) (ix2 0 j)) q

/-- The whole array the first launch leaves. -/
abbrev G0 (c : Dev nD) : FVec Ideal S50000x128 .f32 := fun i => row0 V c (i 0) (i 1)

/-- The block indices, over the 25 grid points: the row-tiled windows are at row tile t, each weight and bias array is
    its window's one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Row tile t of window 0's array: row p of the tile is row t · 2000 + p of the array. -/
theorem blk0_0_apply (c : Dev nD) (t : Fin cfg0.N) (p : Fin 2000) (k : Fin 128) (n : Fin 50000) (hn : n.val = t.val * 2000 + p.val) :
    Gen.iblk0 (F := Ideal) V c 0 t (ix2 p k) = (V c main_arg0 : FVec Ideal S50000x128 .f32) (ix2 n k) := by
  obtain ⟨h0, h1, -, -, -, -, -, -, -, -, -, -, -, -, -, -, -, -, -, -, -, -⟩ := idx_facts0 t
  show (V c main_arg0 : FVec Ideal S50000x128 .f32) (((cfg0.win 0).blk t).view.emb (ix2 p k)) = _
  refine congrArg (V c main_arg0 : FVec Ideal S50000x128 .f32) ?_
  funext a; apply Fin.ext
  match a with
  | ⟨0, _⟩ => show win0_0.index t (0 : Fin 2) * 2000 + 1 * p.val = n.val; rw [h0, hn]; omega
  | ⟨1, _⟩ => show win0_0.index t (1 : Fin 2) * 128 + 1 * k.val = k.val; rw [h1]; omega

/-- Row tile t of window 1's array: row p of the tile is row t · 2000 + p of the array. -/
theorem blk0_1_apply (c : Dev nD) (t : Fin cfg0.N) (p : Fin 2000) (k : Fin 128) (n : Fin 50000) (hn : n.val = t.val * 2000 + p.val) :
    Gen.iblk0 (F := Ideal) V c 1 t (ix2 p k) = (V c main_v18 : FVec Ideal S50000x128 .f32) (ix2 n k) := by
  obtain ⟨-, -, h0, h1, -, -, -, -, -, -, -, -, -, -, -, -, -, -, -, -, -, -⟩ := idx_facts0 t
  show (V c main_v18 : FVec Ideal S50000x128 .f32) (((cfg0.win 1).blk t).view.emb (ix2 p k)) = _
  refine congrArg (V c main_v18 : FVec Ideal S50000x128 .f32) ?_
  funext a; apply Fin.ext
  match a with
  | ⟨0, _⟩ => show win0_1.index t (0 : Fin 2) * 2000 + 1 * p.val = n.val; rw [h0, hn]; omega
  | ⟨1, _⟩ => show win0_1.index t (1 : Fin 2) * 128 + 1 * k.val = k.val; rw [h1]; omega

/-- Row tile t of window 2's array: row p of the tile is row t · 2000 + p of the array. -/
theorem blk0_2_apply (c : Dev nD) (t : Fin cfg0.N) (p : Fin 2000) (k : Fin 1) (n : Fin 50000) (hn : n.val = t.val * 2000 + p.val) :
    Gen.iblk0 (F := Ideal) V c 2 t (ix2 p k) = (V c main_v8 : FVec Ideal S50000x1 .f32) (ix2 n k) := by
  obtain ⟨-, -, -, -, h0, h1, -, -, -, -, -, -, -, -, -, -, -, -, -, -, -, -⟩ := idx_facts0 t
  show (V c main_v8 : FVec Ideal S50000x1 .f32) (((cfg0.win 2).blk t).view.emb (ix2 p k)) = _
  refine congrArg (V c main_v8 : FVec Ideal S50000x1 .f32) ?_
  funext a; apply Fin.ext
  match a with
  | ⟨0, _⟩ => show win0_2.index t (0 : Fin 2) * 2000 + 1 * p.val = n.val; rw [h0, hn]; omega
  | ⟨1, _⟩ => show win0_2.index t (1 : Fin 2) * 1 + 1 * k.val = k.val; rw [h1]; omega

/-- Row tile t of window 3's array: row p of the tile is row t · 2000 + p of the array. -/
theorem blk0_3_apply (c : Dev nD) (t : Fin cfg0.N) (p : Fin 2000) (k : Fin 128) (n : Fin 50000) (hn : n.val = t.val * 2000 + p.val) :
    Gen.iblk0 (F := Ideal) V c 3 t (ix2 p k) = (V c main_v14 : FVec Ideal S50000x128 .bf16) (ix2 n k) := by
  obtain ⟨-, -, -, -, -, -, h0, h1, -, -, -, -, -, -, -, -, -, -, -, -, -, -⟩ := idx_facts0 t
  show (V c main_v14 : FVec Ideal S50000x128 .bf16) (((cfg0.win 3).blk t).view.emb (ix2 p k)) = _
  refine congrArg (V c main_v14 : FVec Ideal S50000x128 .bf16) ?_
  funext a; apply Fin.ext
  match a with
  | ⟨0, _⟩ => show win0_3.index t (0 : Fin 2) * 2000 + 1 * p.val = n.val; rw [h0, hn]; omega
  | ⟨1, _⟩ => show win0_3.index t (1 : Fin 2) * 128 + 1 * k.val = k.val; rw [h1]; omega

/-- Window 4's one block is its whole array (the message layer's weights). -/
theorem blk0_4_apply (c : Dev nD) (t : Fin cfg0.N) (k : Fin 384) (o : Fin 256) :
    Gen.iblk0 (F := Ideal) V c 4 t (ix2 k o) = (V c main_v22 : FVec Ideal S384x256 .bf16) (ix2 k o) := by
  obtain ⟨-, -, -, -, -, -, -, -, h0, h1, -, -, -, -, -, -, -, -, -, -, -, -⟩ := idx_facts0 t
  show (V c main_v22 : FVec Ideal S384x256 .bf16) (((cfg0.win 4).blk t).view.emb (ix2 k o)) = _
  refine congrArg (V c main_v22 : FVec Ideal S384x256 .bf16) ?_
  funext a; apply Fin.ext
  match a with
  | ⟨0, _⟩ => show win0_4.index t (0 : Fin 2) * 384 + 1 * k.val = k.val; rw [h0]; omega
  | ⟨1, _⟩ => show win0_4.index t (1 : Fin 2) * 256 + 1 * o.val = o.val; rw [h1]; omega

/-- Window 5's one block is its whole array (the message layer's bias row). -/
theorem blk0_5_apply (c : Dev nD) (t : Fin cfg0.N) (k : Fin 1) (o : Fin 256) :
    Gen.iblk0 (F := Ideal) V c 5 t (ix2 k o) = (V c main_v37 : FVec Ideal S1x256 .f32) (ix2 k o) := by
  obtain ⟨-, -, -, -, -, -, -, -, -, -, h0, h1, -, -, -, -, -, -, -, -, -, -⟩ := idx_facts0 t
  show (V c main_v37 : FVec Ideal S1x256 .f32) (((cfg0.win 5).blk t).view.emb (ix2 k o)) = _
  refine congrArg (V c main_v37 : FVec Ideal S1x256 .f32) ?_
  funext a; apply Fin.ext
  match a with
  | ⟨0, _⟩ => show win0_5.index t (0 : Fin 2) * 1 + 1 * k.val = k.val; rw [h0]; omega
  | ⟨1, _⟩ => show win0_5.index t (1 : Fin 2) * 256 + 1 * o.val = o.val; rw [h1]; omega

/-- Window 6's one block is its whole array (the input gates' weights). -/
theorem blk0_6_apply (c : Dev nD) (t : Fin cfg0.N) (k : Fin 256) (o : Fin 384) :
    Gen.iblk0 (F := Ideal) V c 6 t (ix2 k o) = (V c main_v26 : FVec Ideal S256x384 .bf16) (ix2 k o) := by
  obtain ⟨-, -, -, -, -, -, -, -, -, -, -, -, h0, h1, -, -, -, -, -, -, -, -⟩ := idx_facts0 t
  show (V c main_v26 : FVec Ideal S256x384 .bf16) (((cfg0.win 6).blk t).view.emb (ix2 k o)) = _
  refine congrArg (V c main_v26 : FVec Ideal S256x384 .bf16) ?_
  funext a; apply Fin.ext
  match a with
  | ⟨0, _⟩ => show win0_6.index t (0 : Fin 2) * 256 + 1 * k.val = k.val; rw [h0]; omega
  | ⟨1, _⟩ => show win0_6.index t (1 : Fin 2) * 384 + 1 * o.val = o.val; rw [h1]; omega

/-- Window 7's one block is its whole array (the input gates' bias row). -/
theorem blk0_7_apply (c : Dev nD) (t : Fin cfg0.N) (k : Fin 1) (o : Fin 384) :
    Gen.iblk0 (F := Ideal) V c 7 t (ix2 k o) = (V c main_v38 : FVec Ideal S1x384 .f32) (ix2 k o) := by
  obtain ⟨-, -, -, -, -, -, -, -, -, -, -, -, -, -, h0, h1, -, -, -, -, -, -⟩ := idx_facts0 t
  show (V c main_v38 : FVec Ideal S1x384 .f32) (((cfg0.win 7).blk t).view.emb (ix2 k o)) = _
  refine congrArg (V c main_v38 : FVec Ideal S1x384 .f32) ?_
  funext a; apply Fin.ext
  match a with
  | ⟨0, _⟩ => show win0_7.index t (0 : Fin 2) * 1 + 1 * k.val = k.val; rw [h0]; omega
  | ⟨1, _⟩ => show win0_7.index t (1 : Fin 2) * 384 + 1 * o.val = o.val; rw [h1]; omega

/-- Window 8's one block is its whole array (the state gates' weights). -/
theorem blk0_8_apply (c : Dev nD) (t : Fin cfg0.N) (k : Fin 128) (o : Fin 384) :
    Gen.iblk0 (F := Ideal) V c 8 t (ix2 k o) = (V c main_v30 : FVec Ideal S128x384 .bf16) (ix2 k o) := by
  obtain ⟨-, -, -, -, -, -, -, -, -, -, -, -, -, -, -, -, h0, h1, -, -, -, -⟩ := idx_facts0 t
  show (V c main_v30 : FVec Ideal S128x384 .bf16) (((cfg0.win 8).blk t).view.emb (ix2 k o)) = _
  refine congrArg (V c main_v30 : FVec Ideal S128x384 .bf16) ?_
  funext a; apply Fin.ext
  match a with
  | ⟨0, _⟩ => show win0_8.index t (0 : Fin 2) * 128 + 1 * k.val = k.val; rw [h0]; omega
  | ⟨1, _⟩ => show win0_8.index t (1 : Fin 2) * 384 + 1 * o.val = o.val; rw [h1]; omega

/-- Window 9's one block is its whole array (the state gates' bias row). -/
theorem blk0_9_apply (c : Dev nD) (t : Fin cfg0.N) (k : Fin 1) (o : Fin 384) :
    Gen.iblk0 (F := Ideal) V c 9 t (ix2 k o) = (V c main_v39 : FVec Ideal S1x384 .f32) (ix2 k o) := by
  obtain ⟨-, -, -, -, -, -, -, -, -, -, -, -, -, -, -, -, -, -, h0, h1, -, -⟩ := idx_facts0 t
  show (V c main_v39 : FVec Ideal S1x384 .f32) (((cfg0.win 9).blk t).view.emb (ix2 k o)) = _
  refine congrArg (V c main_v39 : FVec Ideal S1x384 .f32) ?_
  funext a; apply Fin.ext
  match a with
  | ⟨0, _⟩ => show win0_9.index t (0 : Fin 2) * 1 + 1 * k.val = k.val; rw [h0]; omega
  | ⟨1, _⟩ => show win0_9.index t (1 : Fin 2) * 384 + 1 * o.val = o.val; rw [h1]; omega

/-- What grid point t writes back is row tile t of the array of cells. -/
theorem flushed0_eq (c : Dev nD) (t : Fin cfg0.N) :
    (Gen.dat0 (F := Ideal) V c).flushed 10 t = ((cfg0.win 10).blk t).view.read (Elt Ideal) (G0 V c) := by
  show (cfg0.win 10).cut (grid0.coords t) ((Gen.dat0 (F := Ideal) V c).after 10 t) = _
  rw [Gen.after0_10]
  obtain ⟨-, -, -, -, -, -, -, -, -, -, -, -, -, -, -, -, -, -, -, -, h0, h1⟩ := idx_facts0 t
  funext y
  obtain ⟨p, q, rfl⟩ : ∃ (p : Fin 2000) (q : Fin 128), y = ix2 p q := ⟨y 0, y 1, eq_ix2 y⟩
  show Gen.out0_10 (F := Ideal) (Gen.iblk0 V c 0 t) (Gen.iblk0 V c 1 t) (Gen.iblk0 V c 2 t) (Gen.iblk0 V c 3 t) (Gen.iblk0 V c 4 t)
      (Gen.iblk0 V c 5 t) (Gen.iblk0 V c 6 t) (Gen.iblk0 V c 7 t) (Gen.iblk0 V c 8 t) (Gen.iblk0 V c 9 t) (ix2 p q)
    = G0 V c (((cfg0.win 10).blk t).view.emb (ix2 p q))
  refine (KBody.out0_apply _ _ _ _ _ _ _ _ _ _ p q).trans ?_
  have hn : ((((cfg0.win 10).blk t).view.emb (ix2 p q)) 0).val = t.val * 2000 + p.val := by
    show win0_10.index t (0 : Fin 2) * 2000 + 1 * p.val = _; rw [h0]; omega
  have hq : q = (((cfg0.win 10).blk t).view.emb (ix2 p q)) 1 :=
    Fin.ext (by show q.val = win0_10.index t (1 : Fin 2) * 128 + 1 * q.val; rw [h1]; omega)
  exact cell_congr (funext fun k => blk0_0_apply V c t p k _ hn)
    (funext fun k => congrArg₂ (fun x y : EReal => x * y) (blk0_1_apply V c t p k _ hn) (blk0_2_apply V c t p 0 _ hn))
    (funext fun k => blk0_3_apply V c t p k _ hn)
    (funext fun k => funext fun o => blk0_4_apply V c t k o) (funext fun o => blk0_5_apply V c t 0 o)
    (funext fun o => funext fun j => blk0_6_apply V c t o j) (funext fun j => blk0_7_apply V c t 0 j)
    (funext fun k => funext fun j => blk0_8_apply V c t k j) (funext fun j => blk0_9_apply V c t 0 j) hq

/-- An entry of the array is in grid point t's tile iff each coordinate is in the tile's range on its axis. -/
theorem mem_blk0 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v40).slice (win0_10.rect t)).set ↔ _
  rw [View.set_slice_whole, Rect.mem_set_unit]
  exact Iff.rfl

/-- Every entry is in some grid point's tile: row r is in tile r / 2000. -/
theorem cover0 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 25 := Gen.N_0
  refine ⟨⟨(i 0).val / 2000, by rw [hN]; omega⟩, Gen.flush0_10 _, ?_⟩
  rw [mem_blk0]
  obtain ⟨-, -, -, -, -, -, -, -, -, -, -, -, -, -, -, -, -, -, -, -, h0, h1⟩ := idx_facts0 ⟨(i 0).val / 2000, by rw [hN]; omega⟩
  intro a
  match a with
  | ⟨0, _⟩ =>
    show win0_10.index _ (0 : Fin 2) * 2000 ≤ (i 0).val ∧ (i 0).val < win0_10.index _ (0 : Fin 2) * 2000 + 2000
    rw [h0]
    show (i 0).val / 2000 * 2000 ≤ (i 0).val ∧ (i 0).val < (i 0).val / 2000 * 2000 + 2000
    omega
  | ⟨1, _⟩ =>
    show win0_10.index _ (1 : Fin 2) * 128 ≤ (i 1).val ∧ (i 1).val < win0_10.index _ (1 : Fin 2) * 128 + 128
    rw [h1]; omega

/-- The array the first launch leaves is the array of cells. -/
theorem final0 (c : Dev nD) : (Gen.dat0 (F := Ideal) V c).arrAt 10 cfg0.N = G0 V c :=
  (Gen.dat0 (F := Ideal) V c).arrAt_eq_of_cover 10 (G0 V c) (fun t _ => flushed0_eq V c t) (cover0)

/-- The first launch's output array, entry (n, q), from the arrays the launch is entered with. -/
theorem final0_apply (c : Dev nD) (n : Fin 50000) (q : Fin 128) :
    ((Gen.dat0 (F := Ideal) V c).arrAt 10 cfg0.N : FVec Ideal S50000x128 .f32) (ix2 n q) = Cert.Spec.cell
      (fun k => (V c main_arg0 : FVec Ideal S50000x128 .f32) (ix2 n k))
      (fun k => rd (S := S50000x128) (φ := .f32) (V c main_v18) (ix2 n k) * rd (S := S50000x1) (φ := .f32) (V c main_v8) (ix2 n 0))
      (fun k => (V c main_v14 : FVec Ideal S50000x128 .bf16) (ix2 n k))
      (fun k o => (V c main_v22 : FVec Ideal S384x256 .bf16) (ix2 k o))
      (fun o => (V c main_v37 : FVec Ideal S1x256 .f32) (ix2 0 o))
      (fun o j => (V c main_v26 : FVec Ideal S256x384 .bf16) (ix2 o j))
      (fun j => (V c main_v38 : FVec Ideal S1x384 .f32) (ix2 0 j))
      (fun k j => (V c main_v30 : FVec Ideal S128x384 .bf16) (ix2 k j))
      (fun j => (V c main_v39 : FVec Ideal S1x384 .f32) (ix2 0 j)) q :=
  congrFun (final0 V c) (ix2 n q)

/-! ## The second launch -/

/-- Entry (n, q) of the array the second launch leaves: the cell of row n of the arrays it is entered with. -/
abbrev row1 (c : Dev nD) (n : Fin 50000) (q : Fin 128) : EReal := Cert.Spec.cell
      (fun k => (V c main_v40 : FVec Ideal S50000x128 .f32) (ix2 n k))
      (fun k => rd (S := S50000x128) (φ := .f32) (V c main_v44) (ix2 n k) * rd (S := S50000x1) (φ := .f32) (V c main_v8) (ix2 n 0))
      (fun k => (V c main_v14 : FVec Ideal S50000x128 .bf16) (ix2 n k))
      (fun k o => (V c main_v48 : FVec Ideal S384x256 .bf16) (ix2 k o))
      (fun o => (V c main_v63 : FVec Ideal S1x256 .f32) (ix2 0 o))
      (fun o j => (V c main_v52 : FVec Ideal S256x384 .bf16) (ix2 o j))
      (fun j => (V c main_v64 : FVec Ideal S1x384 .f32) (ix2 0 j))
      (fun k j => (V c main_v56 : FVec Ideal S128x384 .bf16) (ix2 k j))
      (fun j => (V c main_v65 : FVec Ideal S1x384 .f32) (ix2 0 j)) q

/-- The whole array the second launch leaves. -/
abbrev G1 (c : Dev nD) : FVec Ideal S50000x128 .f32 := fun i => row1 V c (i 0) (i 1)

/-- The block indices, over the 25 grid points: the row-tiled windows are at row tile t, each weight and bias array is
    its window's one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row tile t of window 0's array: row p of the tile is row t · 2000 + p of the array. -/
theorem blk1_0_apply (c : Dev nD) (t : Fin cfg1.N) (p : Fin 2000) (k : Fin 128) (n : Fin 50000) (hn : n.val = t.val * 2000 + p.val) :
    Gen.iblk1 (F := Ideal) V c 0 t (ix2 p k) = (V c main_v40 : FVec Ideal S50000x128 .f32) (ix2 n k) := by
  obtain ⟨h0, h1, -, -, -, -, -, -, -, -, -, -, -, -, -, -, -, -, -, -, -, -⟩ := idx_facts1 t
  show (V c main_v40 : FVec Ideal S50000x128 .f32) (((cfg1.win 0).blk t).view.emb (ix2 p k)) = _
  refine congrArg (V c main_v40 : FVec Ideal S50000x128 .f32) ?_
  funext a; apply Fin.ext
  match a with
  | ⟨0, _⟩ => show win1_0.index t (0 : Fin 2) * 2000 + 1 * p.val = n.val; rw [h0, hn]; omega
  | ⟨1, _⟩ => show win1_0.index t (1 : Fin 2) * 128 + 1 * k.val = k.val; rw [h1]; omega

/-- Row tile t of window 1's array: row p of the tile is row t · 2000 + p of the array. -/
theorem blk1_1_apply (c : Dev nD) (t : Fin cfg1.N) (p : Fin 2000) (k : Fin 128) (n : Fin 50000) (hn : n.val = t.val * 2000 + p.val) :
    Gen.iblk1 (F := Ideal) V c 1 t (ix2 p k) = (V c main_v44 : FVec Ideal S50000x128 .f32) (ix2 n k) := by
  obtain ⟨-, -, h0, h1, -, -, -, -, -, -, -, -, -, -, -, -, -, -, -, -, -, -⟩ := idx_facts1 t
  show (V c main_v44 : FVec Ideal S50000x128 .f32) (((cfg1.win 1).blk t).view.emb (ix2 p k)) = _
  refine congrArg (V c main_v44 : FVec Ideal S50000x128 .f32) ?_
  funext a; apply Fin.ext
  match a with
  | ⟨0, _⟩ => show win1_1.index t (0 : Fin 2) * 2000 + 1 * p.val = n.val; rw [h0, hn]; omega
  | ⟨1, _⟩ => show win1_1.index t (1 : Fin 2) * 128 + 1 * k.val = k.val; rw [h1]; omega

/-- Row tile t of window 2's array: row p of the tile is row t · 2000 + p of the array. -/
theorem blk1_2_apply (c : Dev nD) (t : Fin cfg1.N) (p : Fin 2000) (k : Fin 1) (n : Fin 50000) (hn : n.val = t.val * 2000 + p.val) :
    Gen.iblk1 (F := Ideal) V c 2 t (ix2 p k) = (V c main_v8 : FVec Ideal S50000x1 .f32) (ix2 n k) := by
  obtain ⟨-, -, -, -, h0, h1, -, -, -, -, -, -, -, -, -, -, -, -, -, -, -, -⟩ := idx_facts1 t
  show (V c main_v8 : FVec Ideal S50000x1 .f32) (((cfg1.win 2).blk t).view.emb (ix2 p k)) = _
  refine congrArg (V c main_v8 : FVec Ideal S50000x1 .f32) ?_
  funext a; apply Fin.ext
  match a with
  | ⟨0, _⟩ => show win1_2.index t (0 : Fin 2) * 2000 + 1 * p.val = n.val; rw [h0, hn]; omega
  | ⟨1, _⟩ => show win1_2.index t (1 : Fin 2) * 1 + 1 * k.val = k.val; rw [h1]; omega

/-- Row tile t of window 3's array: row p of the tile is row t · 2000 + p of the array. -/
theorem blk1_3_apply (c : Dev nD) (t : Fin cfg1.N) (p : Fin 2000) (k : Fin 128) (n : Fin 50000) (hn : n.val = t.val * 2000 + p.val) :
    Gen.iblk1 (F := Ideal) V c 3 t (ix2 p k) = (V c main_v14 : FVec Ideal S50000x128 .bf16) (ix2 n k) := by
  obtain ⟨-, -, -, -, -, -, h0, h1, -, -, -, -, -, -, -, -, -, -, -, -, -, -⟩ := idx_facts1 t
  show (V c main_v14 : FVec Ideal S50000x128 .bf16) (((cfg1.win 3).blk t).view.emb (ix2 p k)) = _
  refine congrArg (V c main_v14 : FVec Ideal S50000x128 .bf16) ?_
  funext a; apply Fin.ext
  match a with
  | ⟨0, _⟩ => show win1_3.index t (0 : Fin 2) * 2000 + 1 * p.val = n.val; rw [h0, hn]; omega
  | ⟨1, _⟩ => show win1_3.index t (1 : Fin 2) * 128 + 1 * k.val = k.val; rw [h1]; omega

/-- Window 4's one block is its whole array (the message layer's weights). -/
theorem blk1_4_apply (c : Dev nD) (t : Fin cfg1.N) (k : Fin 384) (o : Fin 256) :
    Gen.iblk1 (F := Ideal) V c 4 t (ix2 k o) = (V c main_v48 : FVec Ideal S384x256 .bf16) (ix2 k o) := by
  obtain ⟨-, -, -, -, -, -, -, -, h0, h1, -, -, -, -, -, -, -, -, -, -, -, -⟩ := idx_facts1 t
  show (V c main_v48 : FVec Ideal S384x256 .bf16) (((cfg1.win 4).blk t).view.emb (ix2 k o)) = _
  refine congrArg (V c main_v48 : FVec Ideal S384x256 .bf16) ?_
  funext a; apply Fin.ext
  match a with
  | ⟨0, _⟩ => show win1_4.index t (0 : Fin 2) * 384 + 1 * k.val = k.val; rw [h0]; omega
  | ⟨1, _⟩ => show win1_4.index t (1 : Fin 2) * 256 + 1 * o.val = o.val; rw [h1]; omega

/-- Window 5's one block is its whole array (the message layer's bias row). -/
theorem blk1_5_apply (c : Dev nD) (t : Fin cfg1.N) (k : Fin 1) (o : Fin 256) :
    Gen.iblk1 (F := Ideal) V c 5 t (ix2 k o) = (V c main_v63 : FVec Ideal S1x256 .f32) (ix2 k o) := by
  obtain ⟨-, -, -, -, -, -, -, -, -, -, h0, h1, -, -, -, -, -, -, -, -, -, -⟩ := idx_facts1 t
  show (V c main_v63 : FVec Ideal S1x256 .f32) (((cfg1.win 5).blk t).view.emb (ix2 k o)) = _
  refine congrArg (V c main_v63 : FVec Ideal S1x256 .f32) ?_
  funext a; apply Fin.ext
  match a with
  | ⟨0, _⟩ => show win1_5.index t (0 : Fin 2) * 1 + 1 * k.val = k.val; rw [h0]; omega
  | ⟨1, _⟩ => show win1_5.index t (1 : Fin 2) * 256 + 1 * o.val = o.val; rw [h1]; omega

/-- Window 6's one block is its whole array (the input gates' weights). -/
theorem blk1_6_apply (c : Dev nD) (t : Fin cfg1.N) (k : Fin 256) (o : Fin 384) :
    Gen.iblk1 (F := Ideal) V c 6 t (ix2 k o) = (V c main_v52 : FVec Ideal S256x384 .bf16) (ix2 k o) := by
  obtain ⟨-, -, -, -, -, -, -, -, -, -, -, -, h0, h1, -, -, -, -, -, -, -, -⟩ := idx_facts1 t
  show (V c main_v52 : FVec Ideal S256x384 .bf16) (((cfg1.win 6).blk t).view.emb (ix2 k o)) = _
  refine congrArg (V c main_v52 : FVec Ideal S256x384 .bf16) ?_
  funext a; apply Fin.ext
  match a with
  | ⟨0, _⟩ => show win1_6.index t (0 : Fin 2) * 256 + 1 * k.val = k.val; rw [h0]; omega
  | ⟨1, _⟩ => show win1_6.index t (1 : Fin 2) * 384 + 1 * o.val = o.val; rw [h1]; omega

/-- Window 7's one block is its whole array (the input gates' bias row). -/
theorem blk1_7_apply (c : Dev nD) (t : Fin cfg1.N) (k : Fin 1) (o : Fin 384) :
    Gen.iblk1 (F := Ideal) V c 7 t (ix2 k o) = (V c main_v64 : FVec Ideal S1x384 .f32) (ix2 k o) := by
  obtain ⟨-, -, -, -, -, -, -, -, -, -, -, -, -, -, h0, h1, -, -, -, -, -, -⟩ := idx_facts1 t
  show (V c main_v64 : FVec Ideal S1x384 .f32) (((cfg1.win 7).blk t).view.emb (ix2 k o)) = _
  refine congrArg (V c main_v64 : FVec Ideal S1x384 .f32) ?_
  funext a; apply Fin.ext
  match a with
  | ⟨0, _⟩ => show win1_7.index t (0 : Fin 2) * 1 + 1 * k.val = k.val; rw [h0]; omega
  | ⟨1, _⟩ => show win1_7.index t (1 : Fin 2) * 384 + 1 * o.val = o.val; rw [h1]; omega

/-- Window 8's one block is its whole array (the state gates' weights). -/
theorem blk1_8_apply (c : Dev nD) (t : Fin cfg1.N) (k : Fin 128) (o : Fin 384) :
    Gen.iblk1 (F := Ideal) V c 8 t (ix2 k o) = (V c main_v56 : FVec Ideal S128x384 .bf16) (ix2 k o) := by
  obtain ⟨-, -, -, -, -, -, -, -, -, -, -, -, -, -, -, -, h0, h1, -, -, -, -⟩ := idx_facts1 t
  show (V c main_v56 : FVec Ideal S128x384 .bf16) (((cfg1.win 8).blk t).view.emb (ix2 k o)) = _
  refine congrArg (V c main_v56 : FVec Ideal S128x384 .bf16) ?_
  funext a; apply Fin.ext
  match a with
  | ⟨0, _⟩ => show win1_8.index t (0 : Fin 2) * 128 + 1 * k.val = k.val; rw [h0]; omega
  | ⟨1, _⟩ => show win1_8.index t (1 : Fin 2) * 384 + 1 * o.val = o.val; rw [h1]; omega

/-- Window 9's one block is its whole array (the state gates' bias row). -/
theorem blk1_9_apply (c : Dev nD) (t : Fin cfg1.N) (k : Fin 1) (o : Fin 384) :
    Gen.iblk1 (F := Ideal) V c 9 t (ix2 k o) = (V c main_v65 : FVec Ideal S1x384 .f32) (ix2 k o) := by
  obtain ⟨-, -, -, -, -, -, -, -, -, -, -, -, -, -, -, -, -, -, h0, h1, -, -⟩ := idx_facts1 t
  show (V c main_v65 : FVec Ideal S1x384 .f32) (((cfg1.win 9).blk t).view.emb (ix2 k o)) = _
  refine congrArg (V c main_v65 : FVec Ideal S1x384 .f32) ?_
  funext a; apply Fin.ext
  match a with
  | ⟨0, _⟩ => show win1_9.index t (0 : Fin 2) * 1 + 1 * k.val = k.val; rw [h0]; omega
  | ⟨1, _⟩ => show win1_9.index t (1 : Fin 2) * 384 + 1 * o.val = o.val; rw [h1]; omega

/-- What grid point t writes back is row tile t of the array of cells. -/
theorem flushed1_eq (c : Dev nD) (t : Fin cfg1.N) :
    (Gen.dat1 (F := Ideal) V c).flushed 10 t = ((cfg1.win 10).blk t).view.read (Elt Ideal) (G1 V c) := by
  show (cfg1.win 10).cut (grid1.coords t) ((Gen.dat1 (F := Ideal) V c).after 10 t) = _
  rw [Gen.after1_10]
  obtain ⟨-, -, -, -, -, -, -, -, -, -, -, -, -, -, -, -, -, -, -, -, h0, h1⟩ := idx_facts1 t
  funext y
  obtain ⟨p, q, rfl⟩ : ∃ (p : Fin 2000) (q : Fin 128), y = ix2 p q := ⟨y 0, y 1, eq_ix2 y⟩
  show Gen.out1_10 (F := Ideal) (Gen.iblk1 V c 0 t) (Gen.iblk1 V c 1 t) (Gen.iblk1 V c 2 t) (Gen.iblk1 V c 3 t) (Gen.iblk1 V c 4 t)
      (Gen.iblk1 V c 5 t) (Gen.iblk1 V c 6 t) (Gen.iblk1 V c 7 t) (Gen.iblk1 V c 8 t) (Gen.iblk1 V c 9 t) (ix2 p q)
    = G1 V c (((cfg1.win 10).blk t).view.emb (ix2 p q))
  refine (KBody.out1_apply _ _ _ _ _ _ _ _ _ _ p q).trans ?_
  have hn : ((((cfg1.win 10).blk t).view.emb (ix2 p q)) 0).val = t.val * 2000 + p.val := by
    show win1_10.index t (0 : Fin 2) * 2000 + 1 * p.val = _; rw [h0]; omega
  have hq : q = (((cfg1.win 10).blk t).view.emb (ix2 p q)) 1 :=
    Fin.ext (by show q.val = win1_10.index t (1 : Fin 2) * 128 + 1 * q.val; rw [h1]; omega)
  exact cell_congr (funext fun k => blk1_0_apply V c t p k _ hn)
    (funext fun k => congrArg₂ (fun x y : EReal => x * y) (blk1_1_apply V c t p k _ hn) (blk1_2_apply V c t p 0 _ hn))
    (funext fun k => blk1_3_apply V c t p k _ hn)
    (funext fun k => funext fun o => blk1_4_apply V c t k o) (funext fun o => blk1_5_apply V c t 0 o)
    (funext fun o => funext fun j => blk1_6_apply V c t o j) (funext fun j => blk1_7_apply V c t 0 j)
    (funext fun k => funext fun j => blk1_8_apply V c t k j) (funext fun j => blk1_9_apply V c t 0 j) hq

/-- An entry of the array is in grid point t's tile iff each coordinate is in the tile's range on its axis. -/
theorem mem_blk1 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v66).slice (win1_10.rect t)).set ↔ _
  rw [View.set_slice_whole, Rect.mem_set_unit]
  exact Iff.rfl

/-- Every entry is in some grid point's tile: row r is in tile r / 2000. -/
theorem cover1 (i : S50000x128.Idx) : ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 25 := Gen.N_1
  refine ⟨⟨(i 0).val / 2000, by rw [hN]; omega⟩, Gen.flush1_10 _, ?_⟩
  rw [mem_blk1]
  obtain ⟨-, -, -, -, -, -, -, -, -, -, -, -, -, -, -, -, -, -, -, -, h0, h1⟩ := idx_facts1 ⟨(i 0).val / 2000, by rw [hN]; omega⟩
  intro a
  match a with
  | ⟨0, _⟩ =>
    show win1_10.index _ (0 : Fin 2) * 2000 ≤ (i 0).val ∧ (i 0).val < win1_10.index _ (0 : Fin 2) * 2000 + 2000
    rw [h0]
    show (i 0).val / 2000 * 2000 ≤ (i 0).val ∧ (i 0).val < (i 0).val / 2000 * 2000 + 2000
    omega
  | ⟨1, _⟩ =>
    show win1_10.index _ (1 : Fin 2) * 128 ≤ (i 1).val ∧ (i 1).val < win1_10.index _ (1 : Fin 2) * 128 + 128
    rw [h1]; omega

/-- The array the second launch leaves is the array of cells. -/
theorem final1 (c : Dev nD) : (Gen.dat1 (F := Ideal) V c).arrAt 10 cfg1.N = G1 V c :=
  (Gen.dat1 (F := Ideal) V c).arrAt_eq_of_cover 10 (G1 V c) (fun t _ => flushed1_eq V c t) (cover1)

/-- The second launch's output array, entry (n, q), from the arrays the launch is entered with. -/
theorem final1_apply (c : Dev nD) (n : Fin 50000) (q : Fin 128) :
    ((Gen.dat1 (F := Ideal) V c).arrAt 10 cfg1.N : FVec Ideal S50000x128 .f32) (ix2 n q) = Cert.Spec.cell
      (fun k => (V c main_v40 : FVec Ideal S50000x128 .f32) (ix2 n k))
      (fun k => rd (S := S50000x128) (φ := .f32) (V c main_v44) (ix2 n k) * rd (S := S50000x1) (φ := .f32) (V c main_v8) (ix2 n 0))
      (fun k => (V c main_v14 : FVec Ideal S50000x128 .bf16) (ix2 n k))
      (fun k o => (V c main_v48 : FVec Ideal S384x256 .bf16) (ix2 k o))
      (fun o => (V c main_v63 : FVec Ideal S1x256 .f32) (ix2 0 o))
      (fun o j => (V c main_v52 : FVec Ideal S256x384 .bf16) (ix2 o j))
      (fun j => (V c main_v64 : FVec Ideal S1x384 .f32) (ix2 0 j))
      (fun k j => (V c main_v56 : FVec Ideal S128x384 .bf16) (ix2 k j))
      (fun j => (V c main_v65 : FVec Ideal S1x384 .f32) (ix2 0 j)) q :=
  congrFun (final1 V c) (ix2 n q)

end Cert.KernelIdeal.Blocks

end
-- ==== Proof.KOps.lean ====
/-
  The arrays the kernel's program prepares on the host for its two launches, as functions of the argument arrays, and
  what each holds at an index: the reciprocal of a node's degree floored at one, the edge mean, the per-node sum of
  gathered neighbour rows (the gather that fills an out-of-range read with a junk value, which an in-range index never
  meets), and each round's weights transposed and biases as one row.
-/
import proofs.«411318_j68908455297282_3_alg».proof.Proof.Gen.KernelIdeal
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll
import Idealize.ShloMosaic.Lib.StableHlo.Predicate
import Idealize.ShloMosaic.PureOps.Ideal.Laws

noncomputable section

namespace Cert.KernelIdeal.KOps

open Idealize.ShloMosaic Idealize.ShloMosaic.ValueIdx Cert.KernelIdeal Cert.KernelIdeal.Facts₀ Cert.KernelIdeal.Facts

/-- Every source index names a node: `0 ≤ src e < 50000`, read signed. -/
def InRange (a2 : IVec S800000 32) : Prop :=
  ∀ i : S800000.Idx, IntOp.cmpi .sge (a2 i) 0#32 = 1#1 ∧ IntOp.cmpi .slt (a2 i) 50000#32 = 1#1

/-- A node's in-degree floored at one. -/
def safeDeg (a3 : IVec S800000 32) : FVec Ideal S50000 .f32 :=
  maximumf (Host.scatterAdd scatter_S50000_S800000x1_S800000_n_0_0_1 (broadcastInDim S50000 ![] bcast_S_S50000 (constant S_ .f32 0x00000000#32)) (broadcastInDim S800000x1 ![0] bcast_S800000_S800000x1_0 a3) (broadcastInDim S800000 ![] bcast_S_S800000 (constant S_ .f32 0x3F800000#32))) (broadcastInDim S50000 ![] bcast_S_S50000 (constant S_ .f32 0x3F800000#32))

/-- Its reciprocal, as a column. -/
def invDeg (a3 : IVec S800000 32) : FVec Ideal S50000x1 .f32 :=
  broadcastInDim S50000x1 ![0] bcast_S50000_S50000x1_0 (Host.divf (broadcastInDim S50000 ![] bcast_S_S50000 (constant S_ .f32 0x3F800000#32)) (safeDeg a3))

/-- Per node, the sum over its incoming edges of the rows `u` carries for them. -/
def segSum (a3 : IVec S800000 32) (u : FVec Ideal S800000x128 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 a3) u

/-- The edge mean: the edge sum times the reciprocal degree. -/
def edgeMean (a1 : FVec Ideal S800000x128 .f32) (a3 : IVec S800000 32) : FVec Ideal S50000x128 .bf16 :=
  truncf .bf16 (mulf (segSum a3 a1) (broadcastInDim S50000x128 ![0, 1] bcast_S50000x1_S50000x128_0_1 (invDeg a3))) bitsLt_bf16_f32

/-- The source index of every edge as a start-index column, a negative index counted from the end. -/
def wrapIdx (a2 : IVec S800000 32) : IVec S800000x1 32 :=
  broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2)

/-- The rows of `hv` the edges' sources name, an out-of-range read filled with a junk value. -/
def takeRows (a2 : IVec S800000 32) (hv : FVec Ideal S50000x128 .f32) : FVec Ideal S800000x128 .f32 :=
  select (broadcastInDim S800000x128 ![0] bcast_S800000_S800000x128_0 ((fun x v => Host.reduce IntOp.andi x v reducesTo_S800000x1_S800000_d1 h_S_) (andi (cmpi .sge (wrapIdx a2) (broadcastInDim S800000x1 ![] bcast_S_S800000x1 (constantI S_ 32 0#32))) (cmpi .sle (wrapIdx a2) (broadcastInDim S800000x1 ![0, 1] bcast_S1x1_S800000x1_0_1 (broadcastInDim S1x1 ![1] bcast_S1_S1x1_1 (constantI S1 32 49999#32))))) (constantI S_ 1 1#1))) (Host.gather gather_S50000x128_S800000x1_S800000x128_1_0_n_n_0_1_1128 hv (wrapIdx a2)) (broadcastInDim S800000x128 ![] bcast_S_S800000x128 (constant S_ .f32 0x7FC00000#32))

/-- Per node, the sum of its in-neighbours' state rows. -/
def nbrSum (a2 a3 : IVec S800000 32) (hv : FVec Ideal S50000x128 .f32) : FVec Ideal S50000x128 .f32 :=
  segSum a3 (takeRows a2 hv)

/-! The weights of each round, transposed, and the biases as one row. -/
def wm0 (a4 : FVec Ideal S2x256x384 .f32) : FVec Ideal S384x256 .bf16 :=
  truncf .bf16 (transpose S384x256 [1, 0] (shapeCast _ (extractStridedSlice S1x256x384 ![0, 0, 0] a4 slices_S2x256x384_S1x256x384_0_0_0) shapeCasts_S1x256x384_S256x384) transposes_S256x384_S384x256_1_0) bitsLt_bf16_f32
def wm1 (a4 : FVec Ideal S2x256x384 .f32) : FVec Ideal S384x256 .bf16 :=
  truncf .bf16 (transpose S384x256 [1, 0] (shapeCast _ (extractStridedSlice S1x256x384 ![1, 0, 0] a4 slices_S2x256x384_S1x256x384_1_0_0) shapeCasts_S1x256x384_S256x384) transposes_S256x384_S384x256_1_0) bitsLt_bf16_f32
def wi0 (a6 : FVec Ideal S2x384x256 .f32) : FVec Ideal S256x384 .bf16 :=
  truncf .bf16 (transpose S256x384 [1, 0] (shapeCast _ (extractStridedSlice S1x384x256 ![0, 0, 0] a6 slices_S2x384x256_S1x384x256_0_0_0) shapeCasts_S1x384x256_S384x256) transposes_S384x256_S256x384_1_0) bitsLt_bf16_f32
def wi1 (a6 : FVec Ideal S2x384x256 .f32) : FVec Ideal S256x384 .bf16 :=
  truncf .bf16 (transpose S256x384 [1, 0] (shapeCast _ (extractStridedSlice S1x384x256 ![1, 0, 0] a6 slices_S2x384x256_S1x384x256_1_0_0) shapeCasts_S1x384x256_S384x256) transposes_S384x256_S256x384_1_0) bitsLt_bf16_f32
def wh0 (a7 : FVec Ideal S2x384x128 .f32) : FVec Ideal S128x384 .bf16 :=
  truncf .bf16 (transpose S128x384 [1, 0] (shapeCast _ (extractStridedSlice S1x384x128 ![0, 0, 0] a7 slices_S2x384x128_S1x384x128_0_0_0) shapeCasts_S1x384x128_S384x128) transposes_S384x128_S128x384_1_0) bitsLt_bf16_f32
def wh1 (a7 : FVec Ideal S2x384x128 .f32) : FVec Ideal S128x384 .bf16 :=
  truncf .bf16 (transpose S128x384 [1, 0] (shapeCast _ (extractStridedSlice S1x384x128 ![1, 0, 0] a7 slices_S2x384x128_S1x384x128_1_0_0) shapeCasts_S1x384x128_S384x128) transposes_S384x128_S128x384_1_0) bitsLt_bf16_f32
def bm0 (a5 : FVec Ideal S2x256 .f32) : FVec Ideal S1x256 .f32 :=
  shapeCast _ (shapeCast _ (extractStridedSlice S1x256 ![0, 0] a5 slices_S2x256_S1x256_0_0) shapeCasts_S1x256_S256) shapeCasts_S256_S1x256
def bm1 (a5 : FVec Ideal S2x256 .f32) : FVec Ideal S1x256 .f32 :=
  shapeCast _ (shapeCast _ (extractStridedSlice S1x256 ![1, 0] a5 slices_S2x256_S1x256_1_0) shapeCasts_S1x256_S256) shapeCasts_S256_S1x256
def bv0 (a8 : FVec Ideal S2x384 .f32) : FVec Ideal S1x384 .f32 :=
  shapeCast _ (shapeCast _ (extractStridedSlice S1x384 ![0, 0] a8 slices_S2x384_S1x384_0_0) shapeCasts_S1x384_S384) shapeCasts_S384_S1x384
def bv1 (a8 : FVec Ideal S2x384 .f32) : FVec Ideal S1x384 .f32 :=
  shapeCast _ (shapeCast _ (extractStridedSlice S1x384 ![1, 0] a8 slices_S2x384_S1x384_1_0) shapeCasts_S1x384_S384) shapeCasts_S384_S1x384

/-! A stacked array cut at one leaf, and the small facts about words and masks the statements below rest on. -/

/-- A rank-3 array cut along its leading axis from `o` reads, at `(j, a, e)`, the source at `(k, a, e)` with `k = o + j`. -/
private theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Leaf `t` of a stack of matrices, transposed and narrowed, holds at `(k, o)` the stack's entry `(t, o, k)`. -/
private theorem leafT_apply {a b : Nat} (t : Nat) (x : FVec Ideal ⟨3, ![2, a, b]⟩ .f32)
    (hs : (⟨3, ![2, a, b]⟩ : Shape).Slices ![t, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (hb : FTy.bits .bf16 < FTy.bits .f32)
    (tt : Fin 2) (htt : tt.val = t) (k : Fin b) (o : Fin a) :
    (truncf .bf16 (transpose ⟨2, ![b, a]⟩ [1, 0] (shapeCast ⟨2, ![a, b]⟩ (extractStridedSlice ⟨3, ![1, a, b]⟩ ![t, 0, 0] x hs) hc) ht) hb
      : FVec Ideal ⟨2, ![b, a]⟩ .bf16) (ix2 k o) = x (ix3 tt o k) := by
  rw [truncf_apply, transpose_ix2_apply, shapeCast_1ab_ab_apply]
  exact slice3_axis0_apply t x hs 0 o k tt (by rw [htt]; rfl)

/-- Row `t` of a two-row array, flattened and set up again as one row, holds at `(0, o)` the array's entry `(t, o)`. -/
private theorem rowOf_apply {a : Nat} (t : Nat) (x : FVec Ideal ⟨2, ![2, a]⟩ .f32)
    (hs : (⟨2, ![2, a]⟩ : Shape).Slices ![t, 0] ⟨2, ![1, a]⟩)
    (hc : (⟨2, ![1, a]⟩ : Shape).ShapeCasts ⟨1, ![a]⟩) (hc' : (⟨1, ![a]⟩ : Shape).ShapeCasts ⟨2, ![1, a]⟩)
    (tt : Fin 2) (htt : tt.val = t) (o : Fin a) :
    shapeCast ⟨2, ![1, a]⟩ (shapeCast ⟨1, ![a]⟩ (extractStridedSlice ⟨2, ![1, a]⟩ ![t, 0] x hs) hc) hc' (ix2 0 o) = x (ix2 tt o) := by
  rw [shapeCast_a_1a_apply, shapeCast_1a_a_apply]
  exact slice2_axis0_apply t x hs 0 o tt (by rw [htt]; rfl)

/-- A signed word that is at least zero and below fifty thousand is not below zero and is at most 49999. -/
private theorem word_facts (w : BitVec 32) (h1 : IntOp.cmpi .sge w 0#32 = 1#1) (h2 : IntOp.cmpi .slt w 50000#32 = 1#1) :
    IntOp.cmpi .slt w 0#32 = 0#1 ∧ IntOp.cmpi .sle w 49999#32 = 1#1 := by
  have e0 : (0#32 : BitVec 32).toInt = 0 := by decide
  have e1 : (50000#32 : BitVec 32).toInt = 50000 := by decide
  have e2 : (49999#32 : BitVec 32).toInt = 49999 := by decide
  simp only [IntOp.cmpi, BitVec.slt, BitVec.sle, StableHlo.Predicate.ofBool_eq_one_iff, decide_eq_true_eq, e0, e1] at h1 h2
  constructor
  · simp only [IntOp.cmpi, BitVec.slt, e0]
    rw [decide_eq_false (by omega)]; rfl
  · simp only [IntOp.cmpi, BitVec.sle, StableHlo.Predicate.ofBool_eq_one_iff, decide_eq_true_eq, e2]
    omega

/-- A left fold by `and` from one over bits that are all one is one. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from one of an array of bits that are all one is one everywhere. -/
private theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x hx _

/-- A select whose condition is one everywhere is its first operand. -/
private theorem select_of_all_one {α : Type} {s : Shape} (c : IVec s 1) (a b : s.Idx → α) (hc : ∀ j, c j = 1#1) :
    select c a b = a := by
  funext j; rw [select_apply, hc j, select_one]

/-- An in-range source index is itself as a start index: it is not negative, so nothing is added to it. -/
private theorem wrapIdx_apply (a2 : IVec S800000 32) (h : InRange a2) (e : Fin 800000) (u : Fin 1) :
    wrapIdx a2 (ix2 e u) = a2 (ix1 e) := by
  unfold wrapIdx
  refine (broadcastInDim_apply _ _ _ _ (ix1 e) (fun a => ?_)).trans ?_
  · match a with
    | ⟨0, _⟩ => rfl
  · rw [select_apply]
    show Scalar.select (IntOp.cmpi .slt (a2 (ix1 e)) 0#32) (IntOp.addi (a2 (ix1 e)) 50000#32) (a2 (ix1 e)) = a2 (ix1 e)
    rw [(word_facts _ (h (ix1 e)).1 (h (ix1 e)).2).1, select_zero]

/-! What they hold at an index. -/
theorem wm0_apply (a4 : FVec Ideal S2x256x384 .f32) (k : Fin 384) (o : Fin 256) : wm0 a4 (ix2 k o) = a4 (ix3 0 o k) :=
  leafT_apply 0 a4 _ _ _ _ 0 rfl k o
theorem wm1_apply (a4 : FVec Ideal S2x256x384 .f32) (k : Fin 384) (o : Fin 256) : wm1 a4 (ix2 k o) = a4 (ix3 1 o k) :=
  leafT_apply 1 a4 _ _ _ _ 1 rfl k o
theorem wi0_apply (a6 : FVec Ideal S2x384x256 .f32) (o : Fin 256) (j : Fin 384) : wi0 a6 (ix2 o j) = a6 (ix3 0 j o) :=
  leafT_apply 0 a6 _ _ _ _ 0 rfl o j
theorem wi1_apply (a6 : FVec Ideal S2x384x256 .f32) (o : Fin 256) (j : Fin 384) : wi1 a6 (ix2 o j) = a6 (ix3 1 j o) :=
  leafT_apply 1 a6 _ _ _ _ 1 rfl o j
theorem wh0_apply (a7 : FVec Ideal S2x384x128 .f32) (k : Fin 128) (j : Fin 384) : wh0 a7 (ix2 k j) = a7 (ix3 0 j k) :=
  leafT_apply 0 a7 _ _ _ _ 0 rfl k j
theorem wh1_apply (a7 : FVec Ideal S2x384x128 .f32) (k : Fin 128) (j : Fin 384) : wh1 a7 (ix2 k j) = a7 (ix3 1 j k) :=
  leafT_apply 1 a7 _ _ _ _ 1 rfl k j
theorem bm0_apply (a5 : FVec Ideal S2x256 .f32) (o : Fin 256) : bm0 a5 (ix2 0 o) = a5 (ix2 0 o) :=
  rowOf_apply 0 a5 _ _ _ 0 rfl o
theorem bm1_apply (a5 : FVec Ideal S2x256 .f32) (o : Fin 256) : bm1 a5 (ix2 0 o) = a5 (ix2 1 o) :=
  rowOf_apply 1 a5 _ _ _ 1 rfl o
theorem bv0_apply (a8 : FVec Ideal S2x384 .f32) (j : Fin 384) : bv0 a8 (ix2 0 j) = a8 (ix2 0 j) :=
  rowOf_apply 0 a8 _ _ _ 0 rfl j
theorem bv1_apply (a8 : FVec Ideal S2x384 .f32) (j : Fin 384) : bv1 a8 (ix2 0 j) = a8 (ix2 1 j) :=
  rowOf_apply 1 a8 _ _ _ 1 rfl j

/-- The degree floored at one is at least one, so it is not zero. -/
theorem safeDeg_ne_zero (a3 : IVec S800000 32) (n : Fin 50000) : safeDeg a3 (ix1 n) ≠ 0 := by
  unfold safeDeg
  rw [maximumf_apply, broadcastInDim_scalar_apply, constant_apply, Ideal.ofBits_one_f32]
  exact ne_of_gt (lt_of_lt_of_le zero_lt_one (le_max_right _ _))

theorem invDeg_apply (a3 : IVec S800000 32) (n : Fin 50000) :
    invDeg a3 (ix2 n 0) = Ideal.div 1 (safeDeg a3 (ix1 n)) := by
  unfold invDeg
  refine (broadcastInDim_apply _ _ _ _ (ix1 n) (fun a => ?_)).trans ?_
  · match a with
    | ⟨0, _⟩ => rfl
  · rw [hostDivf_apply, broadcastInDim_scalar_apply, constant_apply, Ideal.ofBits_one_f32]

theorem edgeMean_apply (a1 : FVec Ideal S800000x128 .f32) (a3 : IVec S800000 32) (n : Fin 50000) (k : Fin 128) :
    edgeMean a1 a3 (ix2 n k) = segSum a3 a1 (ix2 n k) * Ideal.div 1 (safeDeg a3 (ix1 n)) := by
  have e : ∀ c : FVec Ideal S50000x1 .f32,
      broadcastInDim S50000x128 ![0, 1] bcast_S50000x1_S50000x128_0_1 c (ix2 n k) = c (ix2 n 0) := fun c =>
    broadcastInDim_apply _ _ _ _ _ (fun a => by
      match a with
      | ⟨0, _⟩ => rfl
      | ⟨1, _⟩ => rfl)
  unfold edgeMean
  rw [truncf_apply, mulf_apply, e, invDeg_apply]

/-- With every source index in range the filled gather is the plain gather. -/
theorem takeRows_eq (a2 : IVec S800000 32) (h : InRange a2) (hv : FVec Ideal S50000x128 .f32) :
    takeRows a2 hv = Host.gather gather_S50000x128_S800000x1_S800000x128_1_0_n_n_0_1_1128 hv (wrapIdx a2) := by
  unfold takeRows
  refine select_of_all_one _ _ _ (fun j => ?_)
  obtain ⟨p, q, rfl⟩ : ∃ (p : Fin 800000) (q : Fin 128), j = ix2 p q := ⟨j 0, j 1, eq_ix2 j⟩
  refine (broadcastInDim_apply _ _ _ _ (ix1 p) (fun a => ?_)).trans ?_
  · match a with
    | ⟨0, _⟩ => rfl
  · refine reduce_andi_one _ _ _ _ _ rfl (fun i => ?_)
    obtain ⟨e, u, rfl⟩ : ∃ (e : Fin 800000) (u : Fin 1), i = ix2 e u := ⟨i 0, i 1, eq_ix2 i⟩
    show IntOp.andi (IntOp.cmpi .sge (wrapIdx a2 (ix2 e u)) 0#32) (IntOp.cmpi .sle (wrapIdx a2 (ix2 e u)) 49999#32) = 1#1
    rw [wrapIdx_apply a2 h e u]
    exact IntOp.andi_eq_one.2 ⟨(h (ix1 e)).1, (word_facts _ (h (ix1 e)).1 (h (ix1 e)).2).2⟩

end Cert.KernelIdeal.KOps

end
-- ==== Proof.KHost.lean ====
/-
  What each launch finds in its input arrays: the buffers the host operations before it have written, read back
  through the program's host stretches as functions of the argument arrays (the first launch) and of the first
  launch's output array (the second).
-/
import proofs.«411318_j68908455297282_3_alg».proof.Proof.Gen.KernelIdeal.Frame
import proofs.«411318_j68908455297282_3_alg».proof.Proof.KOps
import Idealize.ShloMosaic.Lib.StableHlo.Run

set_option maxRecDepth 16384

noncomputable section

namespace Cert.KernelIdeal.KHost

open Idealize.ShloMosaic Idealize.ShloMosaic.TcCoe Idealize.SL.Sem Cert.KernelIdeal Cert.KernelIdeal.KOps

variable (m : (ℓ : Loc nD τ sig) → Buf (Elt Ideal) ℓ) (ρ : Dev nD → PrngReg)

/-! ## What each host stretch writes, and what it leaves -/

/-- The buffers the operations of `hostOps0` write. -/
private abbrev hostOps0_W : List (Ref sig .tc) := [main_cst, main_v0, main_cst_0, main_v1, main_v2, main_v3, main_cst_1, main_v4, main_v5, main_cst_2, main_v6, main_v7, main_v8, main_cst_3, main_v9, main_v10, main_v11, main_v12, main_v13, main_v14]
private theorem hostOps0_writes : (Gen.hostOps0 : List (HloOp τ sig (Elt Ideal))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of `hostOps0_1` write. -/
private abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v15]
private theorem hostOps0_1_writes : (Gen.hostOps0_1 : List (HloOp τ sig (Elt Ideal))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of `hostOps0_2` write. -/
private abbrev hostOps0_2_W : List (Ref sig .tc) := [main_cst_4, main_v16, main_v17, main_v18, main_v19, main_v20, main_v21, main_v22, main_v23, main_v24, main_v25, main_v26, main_v27, main_v28, main_v29, main_v30, main_v31, main_v32, main_v33, main_v34, main_v35, main_v36, main_v37, main_v38, main_v39]
private theorem hostOps0_2_writes : (Gen.hostOps0_2 : List (HloOp τ sig (Elt Ideal))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of `hostOps1` write. -/
private abbrev hostOps1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v41]
private theorem hostOps1_writes : (Gen.hostOps1 : List (HloOp τ sig (Elt Ideal))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The buffers the operations of `hostOps1_1` write. -/
private abbrev hostOps1_1_W : List (Ref sig .tc) := [main_cst_5, main_v42, main_v43, main_v44, main_v45, main_v46, main_v47, main_v48, main_v49, main_v50, main_v51, main_v52, main_v53, main_v54, main_v55, main_v56, main_v57, main_v58, main_v59, main_v60, main_v61, main_v62, main_v63, main_v64, main_v65]
private theorem hostOps1_1_writes : (Gen.hostOps1_1 : List (HloOp τ sig (Elt Ideal))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! A buffer a stretch does not write holds after it what it held before. -/

private theorem W1_of (c : Dev nD) (r : Ref sig .tc) (h : r ∉ hostOps0_W) : Gen.W1 m ρ c (Proc.devRef .tc r) = Gen.W0 m ρ c (Proc.devRef .tc r) :=
  StableHlo.after_of_writes_sub Gen.hostOps0 _ hostOps0_writes h
private theorem W2_of (c : Dev nD) (r : Ref sig .tc) (h : r ∉ hostOps0_1_W) : Gen.W2 m ρ c (Proc.devRef .tc r) = Gen.W1 m ρ c (Proc.devRef .tc r) :=
  StableHlo.after_of_writes_sub Gen.hostOps0_1 _ hostOps0_1_writes h
private theorem W3_of (c : Dev nD) (r : Ref sig .tc) (h : r ∉ hostOps0_2_W) : Gen.W3 m ρ c (Proc.devRef .tc r) = Gen.W2 m ρ c (Proc.devRef .tc r) :=
  StableHlo.after_of_writes_sub Gen.hostOps0_2 _ hostOps0_2_writes h
private theorem W5_of (c : Dev nD) (r : Ref sig .tc) (h : r ∉ hostOps1_W) : Gen.W5 m ρ c (Proc.devRef .tc r) = Gen.W4 m ρ c (Proc.devRef .tc r) :=
  StableHlo.after_of_writes_sub Gen.hostOps1 _ hostOps1_writes h
private theorem W6_of (c : Dev nD) (r : Ref sig .tc) (h : r ∉ hostOps1_1_W) : Gen.W6 m ρ c (Proc.devRef .tc r) = Gen.W5 m ρ c (Proc.devRef .tc r) :=
  StableHlo.after_of_writes_sub Gen.hostOps1_1 _ hostOps1_1_writes h

/-- The launch memory at a buffer is the argument array there. -/
private theorem W0_eq (c : Dev nD) (r : Ref sig .tc) : Gen.W0 m ρ c (Proc.devRef .tc r) = m (((c : Dev nD) : Thread nD τ).loc r) := rfl

/-- A buffer none of the three stretches before the first launch writes holds its launch contents there. -/
private theorem W1_arg (c : Dev nD) (r : Ref sig .tc) (h0 : r ∉ hostOps0_W) :
    Gen.W1 m ρ c (Proc.devRef .tc r) = m (((c : Dev nD) : Thread nD τ).loc r) :=
  (W1_of m ρ c r h0).trans (W0_eq m ρ c r)
private theorem W2_arg (c : Dev nD) (r : Ref sig .tc) (h0 : r ∉ hostOps0_W) (h1 : r ∉ hostOps0_1_W) :
    Gen.W2 m ρ c (Proc.devRef .tc r) = m (((c : Dev nD) : Thread nD τ).loc r) :=
  (W2_of m ρ c r h1).trans (W1_arg m ρ c r h0)
private theorem W3_arg (c : Dev nD) (r : Ref sig .tc) (h0 : r ∉ hostOps0_W) (h1 : r ∉ hostOps0_1_W) (h2 : r ∉ hostOps0_2_W) :
    Gen.W3 m ρ c (Proc.devRef .tc r) = m (((c : Dev nD) : Thread nD τ).loc r) :=
  (W3_of m ρ c r h2).trans (W2_arg m ρ c r h0 h1)
/-- The same after the first launch, for a buffer that is none of its arrays, and after the gather that follows. -/
private theorem W4_arg (c : Dev nD) (r : Ref sig .tc) (h0 : r ∉ hostOps0_W) (h1 : r ∉ hostOps0_1_W) (h2 : r ∉ hostOps0_2_W)
    (hw : ∀ w, Pipeline.arrRef spec0 w ≠ r) :
    Gen.W4 m ρ c (Proc.devRef .tc r) = m (((c : Dev nD) : Thread nD τ).loc r) :=
  (Gen.W4_of_ne m ρ c r hw).trans (W3_arg m ρ c r h0 h1 h2)
private theorem W5_arg (c : Dev nD) (r : Ref sig .tc) (h0 : r ∉ hostOps0_W) (h1 : r ∉ hostOps0_1_W) (h2 : r ∉ hostOps0_2_W)
    (hw : ∀ w, Pipeline.arrRef spec0 w ≠ r) (h3 : r ∉ hostOps1_W) :
    Gen.W5 m ρ c (Proc.devRef .tc r) = m (((c : Dev nD) : Thread nD τ).loc r) :=
  (W5_of m ρ c r h3).trans (W4_arg m ρ c r h0 h1 h2 hw)

/-! ## Contents carried to a typed reference's buffer type and back

The operations of the outlined gather name their buffers through references that carry the tensor type; a value is moved
to the buffer's own type when written and back when read, which changes nothing. -/

private theorem ofBuf_toBuf {Val : EltTy → Type} {T : BufTy} (r : Ref sig .tc) (p p' : r.ty = T) (q q' : r.space ≠ .host)
    (u u' : r.isScoped = false) (v : T.Contents Val) :
    (StableHlo.TRef.of r p q u).ofBuf ((StableHlo.TRef.of r p' q' u').toBuf v) = v := by
  subst p; rfl

private theorem ofBuf_arg0 (p : main_arg0.ty = (⟨S50000x128, .f32⟩ : BufTy)) (q : main_arg0.space ≠ .host) (u : main_arg0.isScoped = false)
    (a : (Proc.devRef (τ := τ) .tc main_arg0 : DevRef τ sig).ty.Contents (Elt Ideal)) :
    (StableHlo.TRef.of main_arg0 p q u).ofBuf a = a := rfl
private theorem ofBuf_arg2 (p : main_arg2.ty = (⟨S800000, .i32⟩ : BufTy)) (q : main_arg2.space ≠ .host) (u : main_arg2.isScoped = false)
    (a : (Proc.devRef (τ := τ) .tc main_arg2 : DevRef τ sig).ty.Contents (Elt Ideal)) :
    (StableHlo.TRef.of main_arg2 p q u).ofBuf a = a := rfl
private theorem ofBuf_v40 (p : main_v40.ty = (⟨S50000x128, .f32⟩ : BufTy)) (q : main_v40.space ≠ .host) (u : main_v40.isScoped = false)
    (a : (Proc.devRef (τ := τ) .tc main_v40 : DevRef τ sig).ty.Contents (Elt Ideal)) :
    (StableHlo.TRef.of main_v40 p q u).ofBuf a = a := rfl
private theorem toBuf_v15 (p : main_v15.ty = (⟨S800000x128, .f32⟩ : BufTy)) (q : main_v15.space ≠ .host) (u : main_v15.isScoped = false)
    (a : FVec Ideal S800000x128 .f32) :
    (StableHlo.TRef.of main_v15 p q u).toBuf (Val := Elt Ideal) a = a := rfl
private theorem toBuf_v41 (p : main_v41.ty = (⟨S800000x128, .f32⟩ : BufTy)) (q : main_v41.space ≠ .host) (u : main_v41.isScoped = false)
    (a : FVec Ideal S800000x128 .f32) :
    (StableHlo.TRef.of main_v41 p q u).toBuf (Val := Elt Ideal) a = a := rfl

/-! ## Each stretch's results as functions of the contents it starts from -/
section Stretch
variable (V : Valuation τ sig (Elt Ideal))

/-- The reciprocal degree. -/
private theorem ops0_v8 : StableHlo.after Gen.hostOps0 V (Proc.devRef .tc main_v8) = invDeg (V (Proc.devRef .tc main_arg3)) := by
  dsimp only [Gen.hostOps0]
  after_results_simp
  unfold invDeg safeDeg
  rfl
/-- The edge mean. -/
private theorem ops0_v14 : StableHlo.after Gen.hostOps0 V (Proc.devRef .tc main_v14)
    = edgeMean (V (Proc.devRef .tc main_arg1)) (V (Proc.devRef .tc main_arg3)) := by
  dsimp only [Gen.hostOps0]
  after_results_simp
  unfold edgeMean segSum invDeg safeDeg
  rfl

/-- The gathered rows of the first round, the values still carried at the typed references. -/
private theorem take0_v15_raw : StableHlo.after Gen.hostOps0_1 V (Proc.devRef .tc main_v15)
    = (StableHlo.TRef.of main_v15 : StableHlo.TRef sig ⟨S800000x128, .f32⟩).toBuf
        (takeRows ((StableHlo.TRef.of main_arg2 : StableHlo.TRef sig ⟨S800000, .i32⟩).ofBuf (V (Proc.devRef .tc main_arg2)))
          ((StableHlo.TRef.of main_arg0 : StableHlo.TRef sig ⟨S50000x128, .f32⟩).ofBuf (V (Proc.devRef .tc main_arg0)))) := by
  dsimp only [Gen.hostOps0_1]
  after_results_simp
  simp only [ofBuf_toBuf]
  unfold takeRows wrapIdx
  rfl
private theorem take0_v15 : StableHlo.after Gen.hostOps0_1 V (Proc.devRef .tc main_v15)
    = takeRows (V (Proc.devRef .tc main_arg2)) (V (Proc.devRef .tc main_arg0)) := by
  rw [take0_v15_raw, toBuf_v15, ofBuf_arg2, ofBuf_arg0]

/-- The gathered rows of the second round. -/
private theorem take1_v41_raw : StableHlo.after Gen.hostOps1 V (Proc.devRef .tc main_v41)
    = (StableHlo.TRef.of main_v41 : StableHlo.TRef sig ⟨S800000x128, .f32⟩).toBuf
        (takeRows ((StableHlo.TRef.of main_arg2 : StableHlo.TRef sig ⟨S800000, .i32⟩).ofBuf (V (Proc.devRef .tc main_arg2)))
          ((StableHlo.TRef.of main_v40 : StableHlo.TRef sig ⟨S50000x128, .f32⟩).ofBuf (V (Proc.devRef .tc main_v40)))) := by
  dsimp only [Gen.hostOps1]
  after_results_simp
  simp only [ofBuf_toBuf]
  unfold takeRows wrapIdx
  rfl
private theorem take1_v41 : StableHlo.after Gen.hostOps1 V (Proc.devRef .tc main_v41)
    = takeRows (V (Proc.devRef .tc main_arg2)) (V (Proc.devRef .tc main_v40)) := by
  rw [take1_v41_raw, toBuf_v41, ofBuf_arg2, ofBuf_v40]

/-- The per-node sum of the gathered rows, and the first round's weights and biases. -/
private theorem ops0_2_v18 : StableHlo.after Gen.hostOps0_2 V (Proc.devRef .tc main_v18)
    = segSum (V (Proc.devRef .tc main_arg3)) (V (Proc.devRef .tc main_v15)) := by
  dsimp only [Gen.hostOps0_2]
  after_results_simp
  unfold segSum
  rfl
private theorem ops0_2_v22 : StableHlo.after Gen.hostOps0_2 V (Proc.devRef .tc main_v22) = wm0 (V (Proc.devRef .tc main_arg4)) := by
  dsimp only [Gen.hostOps0_2]
  after_results_simp
  unfold wm0
  rfl
private theorem ops0_2_v37 : StableHlo.after Gen.hostOps0_2 V (Proc.devRef .tc main_v37) = bm0 (V (Proc.devRef .tc main_arg5)) := by
  dsimp only [Gen.hostOps0_2]
  after_results_simp
  unfold bm0
  rfl
private theorem ops0_2_v26 : StableHlo.after Gen.hostOps0_2 V (Proc.devRef .tc main_v26) = wi0 (V (Proc.devRef .tc main_arg6)) := by
  dsimp only [Gen.hostOps0_2]
  after_results_simp
  unfold wi0
  rfl
private theorem ops0_2_v38 : StableHlo.after Gen.hostOps0_2 V (Proc.devRef .tc main_v38) = bv0 (V (Proc.devRef .tc main_arg8)) := by
  dsimp only [Gen.hostOps0_2]
  after_results_simp
  unfold bv0
  rfl
private theorem ops0_2_v30 : StableHlo.after Gen.hostOps0_2 V (Proc.devRef .tc main_v30) = wh0 (V (Proc.devRef .tc main_arg7)) := by
  dsimp only [Gen.hostOps0_2]
  after_results_simp
  unfold wh0
  rfl
private theorem ops0_2_v39 : StableHlo.after Gen.hostOps0_2 V (Proc.devRef .tc main_v39) = bv0 (V (Proc.devRef .tc main_arg9)) := by
  dsimp only [Gen.hostOps0_2]
  after_results_simp
  unfold bv0
  rfl

/-- The same for the second round. -/
private theorem ops1_1_v44 : StableHlo.after Gen.hostOps1_1 V (Proc.devRef .tc main_v44)
    = segSum (V (Proc.devRef .tc main_arg3)) (V (Proc.devRef .tc main_v41)) := by
  dsimp only [Gen.hostOps1_1]
  after_results_simp
  unfold segSum
  rfl
private theorem ops1_1_v48 : StableHlo.after Gen.hostOps1_1 V (Proc.devRef .tc main_v48) = wm1 (V (Proc.devRef .tc main_arg4)) := by
  dsimp only [Gen.hostOps1_1]
  after_results_simp
  unfold wm1
  rfl
private theorem ops1_1_v63 : StableHlo.after Gen.hostOps1_1 V (Proc.devRef .tc main_v63) = bm1 (V (Proc.devRef .tc main_arg5)) := by
  dsimp only [Gen.hostOps1_1]
  after_results_simp
  unfold bm1
  rfl
private theorem ops1_1_v52 : StableHlo.after Gen.hostOps1_1 V (Proc.devRef .tc main_v52) = wi1 (V (Proc.devRef .tc main_arg6)) := by
  dsimp only [Gen.hostOps1_1]
  after_results_simp
  unfold wi1
  rfl
private theorem ops1_1_v64 : StableHlo.after Gen.hostOps1_1 V (Proc.devRef .tc main_v64) = bv1 (V (Proc.devRef .tc main_arg8)) := by
  dsimp only [Gen.hostOps1_1]
  after_results_simp
  unfold bv1
  rfl
private theorem ops1_1_v56 : StableHlo.after Gen.hostOps1_1 V (Proc.devRef .tc main_v56) = wh1 (V (Proc.devRef .tc main_arg7)) := by
  dsimp only [Gen.hostOps1_1]
  after_results_simp
  unfold wh1
  rfl
private theorem ops1_1_v65 : StableHlo.after Gen.hostOps1_1 V (Proc.devRef .tc main_v65) = bv1 (V (Proc.devRef .tc main_arg9)) := by
  dsimp only [Gen.hostOps1_1]
  after_results_simp
  unfold bv1
  rfl
end Stretch

/-! ## The first launch's input arrays -/
theorem V3_arg0 (c : Dev nD) : (Gen.V3 (F := Ideal) m ρ c main_arg0 : FVec Ideal S50000x128 .f32) = (m (((c : Dev nD) : Thread nD τ).loc main_arg0)) :=
  W3_arg m ρ c main_arg0 (by decide) (by decide) (by decide)
theorem V3_v18 (c : Dev nD) : (Gen.V3 (F := Ideal) m ρ c main_v18 : FVec Ideal S50000x128 .f32) = nbrSum (m (((c : Dev nD) : Thread nD τ).loc main_arg2)) (m (((c : Dev nD) : Thread nD τ).loc main_arg3)) (m (((c : Dev nD) : Thread nD τ).loc main_arg0)) := by
  refine (ops0_2_v18 (Gen.W2 m ρ c)).trans ?_
  rw [W2_arg m ρ c main_arg3 (by decide) (by decide),
    show Gen.W2 m ρ c (Proc.devRef .tc main_v15) = _ from take0_v15 (Gen.W1 m ρ c),
    W1_arg m ρ c main_arg2 (by decide), W1_arg m ρ c main_arg0 (by decide)]
  rfl
theorem V3_v8 (c : Dev nD) : (Gen.V3 (F := Ideal) m ρ c main_v8 : FVec Ideal S50000x1 .f32) = invDeg (m (((c : Dev nD) : Thread nD τ).loc main_arg3)) :=
  (W3_of m ρ c main_v8 (by decide)).trans ((W2_of m ρ c main_v8 (by decide)).trans
    ((ops0_v8 (Gen.W0 m ρ c)).trans (congrArg invDeg (W0_eq m ρ c main_arg3))))
theorem V3_v14 (c : Dev nD) : (Gen.V3 (F := Ideal) m ρ c main_v14 : FVec Ideal S50000x128 .bf16) = edgeMean (m (((c : Dev nD) : Thread nD τ).loc main_arg1)) (m (((c : Dev nD) : Thread nD τ).loc main_arg3)) :=
  (W3_of m ρ c main_v14 (by decide)).trans ((W2_of m ρ c main_v14 (by decide)).trans
    ((ops0_v14 (Gen.W0 m ρ c)).trans (by rw [W0_eq m ρ c main_arg1, W0_eq m ρ c main_arg3])))
theorem V3_v22 (c : Dev nD) : (Gen.V3 (F := Ideal) m ρ c main_v22 : FVec Ideal S384x256 .bf16) = wm0 (m (((c : Dev nD) : Thread nD τ).loc main_arg4)) :=
  (ops0_2_v22 (Gen.W2 m ρ c)).trans (congrArg wm0 (W2_arg m ρ c main_arg4 (by decide) (by decide)))
theorem V3_v37 (c : Dev nD) : (Gen.V3 (F := Ideal) m ρ c main_v37 : FVec Ideal S1x256 .f32) = bm0 (m (((c : Dev nD) : Thread nD τ).loc main_arg5)) :=
  (ops0_2_v37 (Gen.W2 m ρ c)).trans (congrArg bm0 (W2_arg m ρ c main_arg5 (by decide) (by decide)))
theorem V3_v26 (c : Dev nD) : (Gen.V3 (F := Ideal) m ρ c main_v26 : FVec Ideal S256x384 .bf16) = wi0 (m (((c : Dev nD) : Thread nD τ).loc main_arg6)) :=
  (ops0_2_v26 (Gen.W2 m ρ c)).trans (congrArg wi0 (W2_arg m ρ c main_arg6 (by decide) (by decide)))
theorem V3_v38 (c : Dev nD) : (Gen.V3 (F := Ideal) m ρ c main_v38 : FVec Ideal S1x384 .f32) = bv0 (m (((c : Dev nD) : Thread nD τ).loc main_arg8)) :=
  (ops0_2_v38 (Gen.W2 m ρ c)).trans (congrArg bv0 (W2_arg m ρ c main_arg8 (by decide) (by decide)))
theorem V3_v30 (c : Dev nD) : (Gen.V3 (F := Ideal) m ρ c main_v30 : FVec Ideal S128x384 .bf16) = wh0 (m (((c : Dev nD) : Thread nD τ).loc main_arg7)) :=
  (ops0_2_v30 (Gen.W2 m ρ c)).trans (congrArg wh0 (W2_arg m ρ c main_arg7 (by decide) (by decide)))
theorem V3_v39 (c : Dev nD) : (Gen.V3 (F := Ideal) m ρ c main_v39 : FVec Ideal S1x384 .f32) = bv0 (m (((c : Dev nD) : Thread nD τ).loc main_arg9)) :=
  (ops0_2_v39 (Gen.W2 m ρ c)).trans (congrArg bv0 (W2_arg m ρ c main_arg9 (by decide) (by decide)))

/-! ## The second launch's input arrays -/
/-- The node states the second launch reads are the first launch's output array. -/
theorem V6_v40 (c : Dev nD) : (Gen.V6 (F := Ideal) m ρ c main_v40 : FVec Ideal S50000x128 .f32) = (Gen.dat0 (F := Ideal) (Gen.V3 m ρ) c).arrAt 10 cfg0.N :=
  (W6_of m ρ c main_v40 (by decide)).trans ((W5_of m ρ c main_v40 (by decide)).trans (Gen.W4_arr m ρ c 10))
theorem V6_v44 (c : Dev nD) : (Gen.V6 (F := Ideal) m ρ c main_v44 : FVec Ideal S50000x128 .f32) = nbrSum (m (((c : Dev nD) : Thread nD τ).loc main_arg2)) (m (((c : Dev nD) : Thread nD τ).loc main_arg3)) ((Gen.dat0 (F := Ideal) (Gen.V3 m ρ) c).arrAt 10 cfg0.N) := by
  refine (ops1_1_v44 (Gen.W5 m ρ c)).trans ?_
  rw [W5_arg m ρ c main_arg3 (by decide) (by decide) (by decide) (by decide) (by decide),
    show Gen.W5 m ρ c (Proc.devRef .tc main_v41) = _ from take1_v41 (Gen.W4 m ρ c),
    W4_arg m ρ c main_arg2 (by decide) (by decide) (by decide) (by decide),
    show Gen.W4 m ρ c (Proc.devRef .tc main_v40) = _ from Gen.W4_arr m ρ c 10]
  rfl
/-- The first launch reads the reciprocal degree and the edge mean and leaves them as they were. -/
private theorem W4_v8 (c : Dev nD) : Gen.W4 m ρ c (Proc.devRef .tc main_v8) = Gen.W3 m ρ c (Proc.devRef .tc main_v8) :=
  (Gen.W4_arr m ρ c 2).trans (((Gen.dat0 (Gen.V3 m ρ) c).arrAt_in 2 rfl _).trans (Gen.A_eq0 (Gen.V3 m ρ) c 2))
private theorem W4_v14 (c : Dev nD) : Gen.W4 m ρ c (Proc.devRef .tc main_v14) = Gen.W3 m ρ c (Proc.devRef .tc main_v14) :=
  (Gen.W4_arr m ρ c 3).trans (((Gen.dat0 (Gen.V3 m ρ) c).arrAt_in 3 rfl _).trans (Gen.A_eq0 (Gen.V3 m ρ) c 3))
theorem V6_v8 (c : Dev nD) : (Gen.V6 (F := Ideal) m ρ c main_v8 : FVec Ideal S50000x1 .f32) = invDeg (m (((c : Dev nD) : Thread nD τ).loc main_arg3)) :=
  (W6_of m ρ c main_v8 (by decide)).trans ((W5_of m ρ c main_v8 (by decide)).trans ((W4_v8 m ρ c).trans (V3_v8 m ρ c)))
theorem V6_v14 (c : Dev nD) : (Gen.V6 (F := Ideal) m ρ c main_v14 : FVec Ideal S50000x128 .bf16) = edgeMean (m (((c : Dev nD) : Thread nD τ).loc main_arg1)) (m (((c : Dev nD) : Thread nD τ).loc main_arg3)) :=
  (W6_of m ρ c main_v14 (by decide)).trans ((W5_of m ρ c main_v14 (by decide)).trans ((W4_v14 m ρ c).trans (V3_v14 m ρ c)))
theorem V6_v48 (c : Dev nD) : (Gen.V6 (F := Ideal) m ρ c main_v48 : FVec Ideal S384x256 .bf16) = wm1 (m (((c : Dev nD) : Thread nD τ).loc main_arg4)) :=
  (ops1_1_v48 (Gen.W5 m ρ c)).trans (congrArg wm1 (W5_arg m ρ c main_arg4 (by decide) (by decide) (by decide) (by decide) (by decide)))
theorem V6_v63 (c : Dev nD) : (Gen.V6 (F := Ideal) m ρ c main_v63 : FVec Ideal S1x256 .f32) = bm1 (m (((c : Dev nD) : Thread nD τ).loc main_arg5)) :=
  (ops1_1_v63 (Gen.W5 m ρ c)).trans (congrArg bm1 (W5_arg m ρ c main_arg5 (by decide) (by decide) (by decide) (by decide) (by decide)))
theorem V6_v52 (c : Dev nD) : (Gen.V6 (F := Ideal) m ρ c main_v52 : FVec Ideal S256x384 .bf16) = wi1 (m (((c : Dev nD) : Thread nD τ).loc main_arg6)) :=
  (ops1_1_v52 (Gen.W5 m ρ c)).trans (congrArg wi1 (W5_arg m ρ c main_arg6 (by decide) (by decide) (by decide) (by decide) (by decide)))
theorem V6_v64 (c : Dev nD) : (Gen.V6 (F := Ideal) m ρ c main_v64 : FVec Ideal S1x384 .f32) = bv1 (m (((c : Dev nD) : Thread nD τ).loc main_arg8)) :=
  (ops1_1_v64 (Gen.W5 m ρ c)).trans (congrArg bv1 (W5_arg m ρ c main_arg8 (by decide) (by decide) (by decide) (by decide) (by decide)))
theorem V6_v56 (c : Dev nD) : (Gen.V6 (F := Ideal) m ρ c main_v56 : FVec Ideal S128x384 .bf16) = wh1 (m (((c : Dev nD) : Thread nD τ).loc main_arg7)) :=
  (ops1_1_v56 (Gen.W5 m ρ c)).trans (congrArg wh1 (W5_arg m ρ c main_arg7 (by decide) (by decide) (by decide) (by decide) (by decide)))
theorem V6_v65 (c : Dev nD) : (Gen.V6 (F := Ideal) m ρ c main_v65 : FVec Ideal S1x384 .f32) = bv1 (m (((c : Dev nD) : Thread nD τ).loc main_arg9)) :=
  (ops1_1_v65 (Gen.W5 m ρ c)).trans (congrArg bv1 (W5_arg m ρ c main_arg9 (by decide) (by decide) (by decide) (by decide) (by decide)))

/-- The result buffer after the run is the second launch's output array. -/
theorem W7_v66 (c : Dev nD) : (Gen.W7 (F := Ideal) m ρ c (Proc.devRef .tc main_v66) : FVec Ideal S50000x128 .f32) = (Gen.dat1 (F := Ideal) (Gen.V6 m ρ) c).arrAt 10 cfg1.N :=
  Gen.W7_arr m ρ c 10

end Cert.KernelIdeal.KHost

end
-- ==== Proof.KVal.lean ====
/-
  The kernel program's result as a function of its arguments: two rounds of the GRU cell (Spec.lean), each over the
  node states, the per-node neighbour sum and edge sum divided by the degree floored at one (the program multiplies by
  the reciprocal, the same number since the divisor is at least one), and that round's weights.
-/
import proofs.«411318_j68908455297282_3_alg».proof.Proof.Blocks
import proofs.«411318_j68908455297282_3_alg».proof.Proof.KHost
import proofs.«411318_j68908455297282_3_alg».proof.Proof.KOps
import proofs.«411318_j68908455297282_3_alg».proof.Proof.RunVal

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.KOps

variable (m : (ℓ : Loc nD τ sig) → Buf (Elt Ideal) ℓ) (ρ : Dev nD → PrngReg)

/-- The node states after the first launch. -/
def round0 (c : Dev nD) : FVec Ideal S50000x128 .f32 := (Gen.dat0 (F := Ideal) (Gen.V3 m ρ) c).arrAt 10 cfg0.N

/-- The result: the node states after the second launch. -/
def round1 (c : Dev nD) : FVec Ideal S50000x128 .f32 := (Gen.dat1 (F := Ideal) (Gen.V6 m ρ) c).arrAt 10 cfg1.N

/-- Round one at (n, q), over the argument arrays. -/
theorem round0_apply (c : Dev nD) (n : Fin 50000) (q : Fin 128) :
    round0 m ρ c (ix2 n q) = Cert.Spec.cell
      (fun k => ((m ((c : Thread nD τ).loc main_arg0)) : FVec Ideal S50000x128 .f32) (ix2 n k))
      (fun k => Ideal.div (nbrSum (m ((c : Thread nD τ).loc main_arg2)) (m ((c : Thread nD τ).loc main_arg3)) ((m ((c : Thread nD τ).loc main_arg0)) : FVec Ideal S50000x128 .f32) (ix2 n k)) (safeDeg (m ((c : Thread nD τ).loc main_arg3)) (ix1 n)))
      (fun k => Ideal.div (segSum (m ((c : Thread nD τ).loc main_arg3)) (m ((c : Thread nD τ).loc main_arg1)) (ix2 n k)) (safeDeg (m ((c : Thread nD τ).loc main_arg3)) (ix1 n)))
      (fun k o => ((m ((c : Thread nD τ).loc main_arg4)) : FVec Ideal S2x256x384 .f32) (ix3 0 o k))
      (fun o => ((m ((c : Thread nD τ).loc main_arg5)) : FVec Ideal S2x256 .f32) (ix2 0 o))
      (fun o j => ((m ((c : Thread nD τ).loc main_arg6)) : FVec Ideal S2x384x256 .f32) (ix3 0 j o))
      (fun j => ((m ((c : Thread nD τ).loc main_arg8)) : FVec Ideal S2x384 .f32) (ix2 0 j))
      (fun k j => ((m ((c : Thread nD τ).loc main_arg7)) : FVec Ideal S2x384x128 .f32) (ix3 0 j k))
      (fun j => ((m ((c : Thread nD τ).loc main_arg9)) : FVec Ideal S2x384 .f32) (ix2 0 j)) q := by
  unfold round0
  rw [Blocks.final0_apply (Gen.V3 m ρ) c n q]
  rw [KHost.V3_arg0 m ρ c, KHost.V3_v18 m ρ c, KHost.V3_v8 m ρ c, KHost.V3_v14 m ρ c, KHost.V3_v22 m ρ c, KHost.V3_v37 m ρ c,
    KHost.V3_v26 m ρ c, KHost.V3_v38 m ρ c, KHost.V3_v30 m ρ c, KHost.V3_v39 m ρ c]
  simp only [wm0_apply, bm0_apply, wi0_apply, bv0_apply, wh0_apply, invDeg_apply, edgeMean_apply,
    Idealize.ShloMosaic.Ideal.mul_one_div (safeDeg_ne_zero _ n), Blocks.rd]

/-- Round two at (n, q), over round one's states and the argument arrays. -/
theorem round1_apply (c : Dev nD) (n : Fin 50000) (q : Fin 128) :
    round1 m ρ c (ix2 n q) = Cert.Spec.cell
      (fun k => (round0 m ρ c) (ix2 n k))
      (fun k => Ideal.div (nbrSum (m ((c : Thread nD τ).loc main_arg2)) (m ((c : Thread nD τ).loc main_arg3)) (round0 m ρ c) (ix2 n k)) (safeDeg (m ((c : Thread nD τ).loc main_arg3)) (ix1 n)))
      (fun k => Ideal.div (segSum (m ((c : Thread nD τ).loc main_arg3)) (m ((c : Thread nD τ).loc main_arg1)) (ix2 n k)) (safeDeg (m ((c : Thread nD τ).loc main_arg3)) (ix1 n)))
      (fun k o => ((m ((c : Thread nD τ).loc main_arg4)) : FVec Ideal S2x256x384 .f32) (ix3 1 o k))
      (fun o => ((m ((c : Thread nD τ).loc main_arg5)) : FVec Ideal S2x256 .f32) (ix2 1 o))
      (fun o j => ((m ((c : Thread nD τ).loc main_arg6)) : FVec Ideal S2x384x256 .f32) (ix3 1 j o))
      (fun j => ((m ((c : Thread nD τ).loc main_arg8)) : FVec Ideal S2x384 .f32) (ix2 1 j))
      (fun k j => ((m ((c : Thread nD τ).loc main_arg7)) : FVec Ideal S2x384x128 .f32) (ix3 1 j k))
      (fun j => ((m ((c : Thread nD τ).loc main_arg9)) : FVec Ideal S2x384 .f32) (ix2 1 j)) q := by
  have e40 : (Gen.V6 (F := Ideal) m ρ c main_v40 : FVec Ideal S50000x128 .f32) = round0 m ρ c := KHost.V6_v40 m ρ c
  have e44 : (Gen.V6 (F := Ideal) m ρ c main_v44 : FVec Ideal S50000x128 .f32)
      = nbrSum (m ((c : Thread nD τ).loc main_arg2)) (m ((c : Thread nD τ).loc main_arg3)) (round0 m ρ c) := KHost.V6_v44 m ρ c
  unfold round1
  rw [Blocks.final1_apply (Gen.V6 m ρ) c n q]
  rw [e40, e44, KHost.V6_v8 m ρ c, KHost.V6_v14 m ρ c, KHost.V6_v48 m ρ c, KHost.V6_v63 m ρ c,
    KHost.V6_v52 m ρ c, KHost.V6_v64 m ρ c, KHost.V6_v56 m ρ c, KHost.V6_v65 m ρ c]
  simp only [wm1_apply, bm1_apply, wi1_apply, bv1_apply, wh1_apply, invDeg_apply, edgeMean_apply,
    Idealize.ShloMosaic.Ideal.mul_one_div (safeDeg_ne_zero _ n), Blocks.rd]

/-- The kernel program's run with its result named. -/
theorem run : θ_run defs (onTc (τ := τ) (main (F := Ideal))) ⟨m, fun _ => 0, ρ⟩ (fun r => ∀ c : Dev nD,
      r.2.mem ((c.tc : Thread nD τ).loc main_v66) = round1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (KHost.W7_v66 m ρ c), (h c).2⟩) (Gen.run_val (F := Ideal) m ρ)

end Cert.KernelIdeal.KVal

end
-- ==== Proof.RefStep.lean ====
/-
  The reference, read one output entry at a time: each of its two rounds is the GRU cell (Spec.lean) of a node's row,
  its neighbour sum and its edge sum each divided by the node's degree floored at one.
-/
import proofs.«411318_j68908455297282_3_alg».proof.Proof.RefRun
import proofs.«411318_j68908455297282_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefStep

open Idealize.ShloMosaic Idealize.ShloMosaic.ValueIdx Idealize.ShloMosaic.TcCoe Idealize.ShloMosaic.StableHlo Idealize.SL.Sem Cert.ReferenceIdeal Cert.ReferenceIdeal.Gen Cert.ReferenceIdeal.Value

/-- A node's in-degree floored at one: the count of edges that end at it, or one if there is none. -/
def safeDeg (a3 : IVec S800000 32) : FVec Ideal S50000 .f32 :=
  maximumf (Host.scatterAdd scatter_S50000_S800000x1_S800000_n_0_0_1 (broadcastInDim S50000 ![] bcast_S_S50000 (constant S_ .f32 0x00000000#32)) (broadcastInDim S800000x1 ![0] bcast_S800000_S800000x1_0 a3) (broadcastInDim S800000 ![] bcast_S_S800000 (constant S_ .f32 0x3F800000#32))) (broadcastInDim S50000 ![] bcast_S_S50000 (constant S_ .f32 0x3F800000#32))

/-- The source index of every edge as a start-index column, a negative index counted from the end. -/
def wrapIdx (a2 : IVec S800000 32) : IVec S800000x1 32 :=
  broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2)

/-- Per node, the sum over its incoming edges of the rows `u` carries for them. -/
def segSum (a3 : IVec S800000 32) (u : FVec Ideal S800000x128 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 a3) u

/-- Per node, the sum of its in-neighbours' state rows. -/
def nbrSum (a2 a3 : IVec S800000 32) (hv : FVec Ideal S50000x128 .f32) : FVec Ideal S50000x128 .f32 :=
  segSum a3 (Host.gather gather_S50000x128_S800000x1_S800000x128_1_0_n_n_0_1_1128 hv (wrapIdx a2))

/-- The node states after the first round. -/
def h1 (V0 : Valuation τ sig (Elt Ideal)) : FVec Ideal S50000x128 .f32 := res_main_v79 V0

/-- The reference's result as the run states it (the term of `Value.run`'s post, with the valuation a variable). -/
def refOut (V0 : Valuation τ sig (Elt Ideal)) : FVec Ideal S50000x128 .f32 :=
  addf (mulf (subf (broadcastInDim S50000x128 ![] bcast_S_S50000x128 (constant S_ .f32 0x3F800000#32)) (res_main_v139 V0)) (Host.tanh (addf (extractStridedSlice S50000x128 ![0, 256] (res_main_v110 V0) slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] (res_main_v110 V0) slices_S50000x384_S50000x128_0_0) (extractStridedSlice S50000x128 ![0, 0] (res_main_v119 V0) slices_S50000x384_S50000x128_0_0)))))) (extractStridedSlice S50000x128 ![0, 256] (res_main_v119 V0) slices_S50000x384_S50000x128_0_256))))) (mulf (res_main_v139 V0) (res_main_v79 V0))

/-! ## Layout chains read at an index -/

section Reads
variable {α : Type}

/-- Member t of a stack, kept as a stack of one, reads the stack at (t, i, j). -/
theorem slice3_member_apply {n0 n1 n2 : ℕ} (t : ℕ) (X : (⟨3, ![n0, n1, n2]⟩ : Shape).Idx → α)
    (h : (⟨3, ![n0, n1, n2]⟩ : Shape).Slices ![t, 0, 0] ⟨3, ![1, n1, n2]⟩)
    (u : Fin 1) (i : Fin n1) (j : Fin n2) (k : Fin n0) (hk : k.val = t) :
    extractStridedSlice ⟨3, ![1, n1, n2]⟩ ![t, 0, 0] X h (ix3 u i j) = X (ix3 k i j) :=
  extractStridedSlice_apply _ _ _ _ _ (fun ax => by
    match ax with
    | ⟨0, _⟩ => show k.val = t + u.val; omega
    | ⟨1, _⟩ => exact (Nat.zero_add _).symm
    | ⟨2, _⟩ => exact (Nat.zero_add _).symm)

/-- Member t of a stack of a×b matrices, transposed, reads at (k, o) the stack at (t, o, k). -/
theorem weight_apply {a b : ℕ} (t : ℕ) (W : (⟨3, ![2, a, b]⟩ : Shape).Idx → α)
    (hs : (⟨3, ![2, a, b]⟩ : Shape).Slices ![t, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩)
    (T : Fin 2) (hT : T.val = t) (k : Fin b) (o : Fin a) :
    transpose ⟨2, ![b, a]⟩ [1, 0] (shapeCast ⟨2, ![a, b]⟩ (extractStridedSlice ⟨3, ![1, a, b]⟩ ![t, 0, 0] W hs) hc) ht (ix2 k o)
      = W (ix3 T o k) := by
  rw [transpose_ix2_apply, shapeCast_1ab_ab_apply]
  exact slice3_member_apply t W hs 0 o k T hT

/-- Row t of a two-row table, laid over every row of an a×b rectangle, reads at (n, o) the table at (t, o). -/
theorem bias_apply {a b : ℕ} (t : ℕ) (B : (⟨2, ![2, b]⟩ : Shape).Idx → α)
    (hs : (⟨2, ![2, b]⟩ : Shape).Slices ![t, 0] ⟨2, ![1, b]⟩)
    (hc : (⟨2, ![1, b]⟩ : Shape).ShapeCasts ⟨1, ![b]⟩)
    (h1 : (⟨1, ![b]⟩ : Shape).BroadcastsInDim ⟨2, ![1, b]⟩ ![1])
    (h2 : (⟨2, ![1, b]⟩ : Shape).BroadcastsInDim ⟨2, ![a, b]⟩ ![0, 1])
    (T : Fin 2) (hT : T.val = t) (n : Fin a) (o : Fin b) :
    broadcastInDim ⟨2, ![a, b]⟩ ![0, 1] h2 (broadcastInDim ⟨2, ![1, b]⟩ ![1] h1
        (shapeCast ⟨1, ![b]⟩ (extractStridedSlice ⟨2, ![1, b]⟩ ![t, 0] B hs) hc)) (ix2 n o)
      = B (ix2 T o) := by
  have ho := o.isLt
  refine (broadcastInDim_apply _ h2 _ (ix2 n o) (ix2 (0 : Fin 1) o) fun ax => ?_).trans ?_
  · match ax with
    | ⟨0, _⟩ => rfl
    | ⟨1, _⟩ =>
      show o.val = if b = 1 then 0 else o.val
      split
      · omega
      · rfl
  refine (broadcastInDim_apply _ h1 _ (ix2 (0 : Fin 1) o) (ix1 o) fun ax => ?_).trans ?_
  · match ax with
    | ⟨0, _⟩ =>
      show o.val = if b = 1 then 0 else o.val
      split
      · omega
      · rfl
  rw [shapeCast_1a_a_apply]
  exact slice2_axis0_apply t B hs 0 o T (by rw [hT]; rfl)

/-- A vector laid down the rows of an a×b rectangle (through its column form) reads at (n, q) the vector at n. -/
theorem column_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (n : Fin a) (q : Fin b) :
    broadcastInDim ⟨2, ![a, b]⟩ ![0, 1] h2 (broadcastInDim ⟨2, ![a, 1]⟩ ![0] h1 v) (ix2 n q) = v (ix1 n) := by
  have hn := n.isLt
  refine (broadcastInDim_apply _ h2 _ (ix2 n q) (ix2 n (0 : Fin 1)) fun ax => ?_).trans ?_
  · match ax with
    | ⟨0, _⟩ =>
      show n.val = if a = 1 then 0 else n.val
      split
      · omega
      · rfl
    | ⟨1, _⟩ => rfl
  refine broadcastInDim_apply _ h1 _ (ix2 n (0 : Fin 1)) (ix1 n) fun ax => ?_
  match ax with
  | ⟨0, _⟩ =>
    show n.val = if a = 1 then 0 else n.val
    split
    · omega
    · rfl

end Reads

/-! ## The host's pointwise operations at an index -/

theorem hostExp_apply {s : Shape} {φ : FTy} (x : FVec Ideal s φ) (i : s.Idx) : Host.exp x i = Ideal.exp (x i) := rfl
theorem hostTanh_apply {s : Shape} {φ : FTy} (x : FVec Ideal s φ) (i : s.Idx) : Host.tanh x i = Ideal.tanh (x i) := rfl
theorem hostNegf_apply {s : Shape} {φ : FTy} (x : FVec Ideal s φ) (i : s.Idx) : Host.negf x i = -(x i) := rfl

/-- The splat of the pattern of one reads one. -/
theorem one_apply (i : S50000x128.Idx) :
    broadcastInDim S50000x128 ![] bcast_S_S50000x128 (constant (F := Ideal) S_ .f32 0x3F800000#32) i = (1 : EReal) := by
  rw [broadcastInDim_scalar_apply, constant_apply, Ideal.ofBits_one_f32]

/-! ## The three products, each the plain sum over the contracted coordinate -/

theorem dotM_apply (x : FVec Ideal S50000x384 .f32) (W : FVec Ideal S384x256 .f32) (n : Fin 50000) (o : Fin 256) :
    Host.dotGeneral dot_S50000x384_S384x256_S50000x256_1_0_0_1_n_n none x W (ix2 n o) = ∑ k : Fin 384, x (ix2 n k) * W (ix2 k o) :=
  StackMember.dotGeneral_plain_apply none x W n o

theorem dotI_apply (x : FVec Ideal S50000x256 .f32) (W : FVec Ideal S256x384 .f32) (n : Fin 50000) (j : Fin 384) :
    Host.dotGeneral dot_S50000x256_S256x384_S50000x384_1_0_0_1_n_n none x W (ix2 n j) = ∑ o : Fin 256, x (ix2 n o) * W (ix2 o j) :=
  StackMember.dotGeneral_plain_apply none x W n j

theorem dotH_apply (x : FVec Ideal S50000x128 .f32) (W : FVec Ideal S128x384 .f32) (n : Fin 50000) (j : Fin 384) :
    Host.dotGeneral dot_S50000x128_S128x384_S50000x384_1_0_0_1_n_n none x W (ix2 n j) = ∑ k : Fin 128, x (ix2 n k) * W (ix2 k j) :=
  StackMember.dotGeneral_plain_apply none x W n j

/-! ## The three rows laid end to end -/

theorem cat_apply (xh xs xe : FVec Ideal S50000x128 .f32) (n : Fin 50000) (k : Fin 384) :
    concatenate S50000x384 1 [⟨S50000x128, xh⟩, ⟨S50000x128, xs⟩, ⟨S50000x128, xe⟩]
        concatenates_S50000x128_S50000x128_S50000x128_S50000x384_d1 (ix2 n k)
      = Cert.Spec.cat3 (fun c => xh (ix2 n c)) (fun c => xs (ix2 n c)) (fun c => xe (ix2 n c)) k := by
  have hk := k.isLt
  unfold Cert.Spec.cat3
  split
  · next h1 =>
    exact concatenate_apply_piece 1 _ _ (ix2 n k) 0 (by show 0 < 3; omega) S50000x128 xh rfl rfl 0 rfl (ix2 n ⟨k.val, h1⟩)
      (fun b hb => by match b with | ⟨0, _⟩ => rfl | ⟨1, _⟩ => exact absurd rfl hb)
      (by show 0 + k.val = k.val; omega)
  · next h1 =>
    split
    · next h2 =>
      exact concatenate_apply_piece 1 _ _ (ix2 n k) 1 (by show 1 < 3; omega) S50000x128 xs rfl rfl 128 rfl (ix2 n ⟨k.val - 128, by omega⟩)
        (fun b hb => by match b with | ⟨0, _⟩ => rfl | ⟨1, _⟩ => exact absurd rfl hb)
        (by show 128 + (k.val - 128) = k.val; omega)
    · next h2 =>
      exact concatenate_apply_piece 1 _ _ (ix2 n k) 2 (by show 2 < 3; omega) S50000x128 xe rfl rfl 256 rfl (ix2 n ⟨k.val - 256, by omega⟩)
        (fun b hb => by match b with | ⟨0, _⟩ => rfl | ⟨1, _⟩ => exact absurd rfl hb)
        (by show 256 + (k.val - 256) = k.val; omega)

/-! ## One round, as the run spells it -/

/-- The message layer: the rows [h, s, e] times the message weights, plus the bias. -/
def act (hv ms me : FVec Ideal S50000x128 .f32) (Wm : FVec Ideal S384x256 .f32) (bm : FVec Ideal S50000x256 .f32) :
    FVec Ideal S50000x256 .f32 :=
  addf (Host.dotGeneral dot_S50000x384_S384x256_S50000x256_1_0_0_1_n_n none (concatenate S50000x384 1 [⟨S50000x128, hv⟩, ⟨S50000x128, ms⟩, ⟨S50000x128, me⟩] concatenates_S50000x128_S50000x128_S50000x128_S50000x384_d1) Wm) bm

/-- The cell's input gates: the activation times the input weights, plus the bias. -/
def gateI (a : FVec Ideal S50000x256 .f32) (Wi : FVec Ideal S256x384 .f32) (bi : FVec Ideal S50000x384 .f32) :
    FVec Ideal S50000x384 .f32 :=
  addf (Host.dotGeneral dot_S50000x256_S256x384_S50000x384_1_0_0_1_n_n none a Wi) bi

/-- The cell's state gates: the state times the state weights, plus the bias. -/
def gateH (hv : FVec Ideal S50000x128 .f32) (Wh : FVec Ideal S128x384 .f32) (bh : FVec Ideal S50000x384 .f32) :
    FVec Ideal S50000x384 .f32 :=
  addf (Host.dotGeneral dot_S50000x128_S128x384_S50000x384_1_0_0_1_n_n none hv Wh) bh

/-- The update gate z: the logistic function of the middle bands' sum, spelt 1 / (1 + exp (-x)). -/
def zGate (gi gh : FVec Ideal S50000x384 .f32) : FVec Ideal S50000x128 .f32 :=
  Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 128] gi slices_S50000x384_S50000x128_0_128) (extractStridedSlice S50000x128 ![0, 128] gh slices_S50000x384_S50000x128_0_128)))))

/-- The new state from the gates: (1 − z) · tanh (i_n + r · h_n) + z · h. -/
def cellOf (gi gh : FVec Ideal S50000x384 .f32) (z hv : FVec Ideal S50000x128 .f32) : FVec Ideal S50000x128 .f32 :=
  addf (mulf (subf (broadcastInDim S50000x128 ![] bcast_S_S50000x128 (constant S_ .f32 0x3F800000#32)) z) (Host.tanh (addf (extractStridedSlice S50000x128 ![0, 256] gi slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] gi slices_S50000x384_S50000x128_0_0) (extractStridedSlice S50000x128 ![0, 0] gh slices_S50000x384_S50000x128_0_0)))))) (extractStridedSlice S50000x128 ![0, 256] gh slices_S50000x384_S50000x128_0_256))))) (mulf z hv)

/-- One round over whole arrays: the operations from the concatenate to the last sum, their nine operands variables. -/
def step (hv ms me : FVec Ideal S50000x128 .f32) (Wm : FVec Ideal S384x256 .f32) (bm : FVec Ideal S50000x256 .f32)
    (Wi : FVec Ideal S256x384 .f32) (bi : FVec Ideal S50000x384 .f32) (Wh : FVec Ideal S128x384 .f32)
    (bh : FVec Ideal S50000x384 .f32) : FVec Ideal S50000x128 .f32 :=
  cellOf (gateI (act hv ms me Wm bm) Wi bi) (gateH hv Wh bh) (zGate (gateI (act hv ms me Wm bm) Wi bi) (gateH hv Wh bh)) hv

/-! ## One round at an index -/

theorem act_apply (hv ms me : FVec Ideal S50000x128 .f32) (Wm : FVec Ideal S384x256 .f32) (bm : FVec Ideal S50000x256 .f32)
    (bm0 : Fin 256 → EReal) (hbm : ∀ n o, bm (ix2 n o) = bm0 o) (n : Fin 50000) (o : Fin 256) :
    act hv ms me Wm bm (ix2 n o)
      = Cert.Spec.lin (Cert.Spec.cat3 (fun c => hv (ix2 n c)) (fun c => ms (ix2 n c)) (fun c => me (ix2 n c)))
          (fun k o => Wm (ix2 k o)) bm0 o := by
  unfold act Cert.Spec.lin
  rw [addf_apply, dotM_apply, hbm]
  refine congrArg (· + bm0 o) (Finset.sum_congr rfl fun k _ => ?_)
  rw [cat_apply]

theorem gateI_apply (a : FVec Ideal S50000x256 .f32) (Wi : FVec Ideal S256x384 .f32) (bi : FVec Ideal S50000x384 .f32)
    (bi0 : Fin 384 → EReal) (hbi : ∀ n j, bi (ix2 n j) = bi0 j) (n : Fin 50000) (j : Fin 384) :
    gateI a Wi bi (ix2 n j) = Cert.Spec.lin (fun o => a (ix2 n o)) (fun o j => Wi (ix2 o j)) bi0 j := by
  unfold gateI Cert.Spec.lin
  rw [addf_apply, dotI_apply, hbi]

theorem gateH_apply (hv : FVec Ideal S50000x128 .f32) (Wh : FVec Ideal S128x384 .f32) (bh : FVec Ideal S50000x384 .f32)
    (bh0 : Fin 384 → EReal) (hbh : ∀ n j, bh (ix2 n j) = bh0 j) (n : Fin 50000) (j : Fin 384) :
    gateH hv Wh bh (ix2 n j) = Cert.Spec.lin (fun k => hv (ix2 n k)) (fun k j => Wh (ix2 k j)) bh0 j := by
  unfold gateH Cert.Spec.lin
  rw [addf_apply, dotH_apply, hbh]

/-- The three bands of a gate array at column q. -/
theorem band0_apply (X : FVec Ideal S50000x384 .f32) (n : Fin 50000) (q : Fin 128) :
    extractStridedSlice S50000x128 ![0, 0] X slices_S50000x384_S50000x128_0_0 (ix2 n q) = X (ix2 n ⟨q.val, by omega⟩) :=
  slice2_axis1_apply 0 X _ n q _ (by show q.val = 0 + q.val; omega)
theorem band1_apply (X : FVec Ideal S50000x384 .f32) (n : Fin 50000) (q : Fin 128) :
    extractStridedSlice S50000x128 ![0, 128] X slices_S50000x384_S50000x128_0_128 (ix2 n q) = X (ix2 n ⟨q.val + 128, by omega⟩) :=
  slice2_axis1_apply 128 X _ n q _ (by show q.val + 128 = 128 + q.val; omega)
theorem band2_apply (X : FVec Ideal S50000x384 .f32) (n : Fin 50000) (q : Fin 128) :
    extractStridedSlice S50000x128 ![0, 256] X slices_S50000x384_S50000x128_0_256 (ix2 n q) = X (ix2 n ⟨q.val + 256, by omega⟩) :=
  slice2_axis1_apply 256 X _ n q _ (by show q.val + 256 = 256 + q.val; omega)

theorem zGate_apply (gi gh : FVec Ideal S50000x384 .f32) (n : Fin 50000) (q : Fin 128) :
    zGate gi gh (ix2 n q) = Ideal.logistic (gi (ix2 n ⟨q.val + 128, by omega⟩) + gh (ix2 n ⟨q.val + 128, by omega⟩)) := by
  unfold zGate Ideal.logistic
  rw [hostDivf_apply, addf_apply, hostExp_apply, hostNegf_apply, addf_apply, one_apply, band1_apply, band1_apply]

theorem cellOf_apply (gi gh : FVec Ideal S50000x384 .f32) (z hv : FVec Ideal S50000x128 .f32) (n : Fin 50000) (q : Fin 128) :
    cellOf gi gh z hv (ix2 n q)
      = (1 - z (ix2 n q)) * Ideal.tanh (gi (ix2 n ⟨q.val + 256, by omega⟩)
            + Ideal.logistic (gi (ix2 n ⟨q.val, by omega⟩) + gh (ix2 n ⟨q.val, by omega⟩)) * gh (ix2 n ⟨q.val + 256, by omega⟩))
        + z (ix2 n q) * hv (ix2 n q) := by
  unfold cellOf Ideal.logistic
  rw [addf_apply, mulf_apply, subf_apply, hostTanh_apply, addf_apply, mulf_apply, hostDivf_apply, addf_apply, hostExp_apply,
    hostNegf_apply, addf_apply, mulf_apply, one_apply, band0_apply, band0_apply, band2_apply, band2_apply]

theorem step_apply (hv ms me : FVec Ideal S50000x128 .f32) (Wm : FVec Ideal S384x256 .f32) (bm : FVec Ideal S50000x256 .f32)
    (Wi : FVec Ideal S256x384 .f32) (bi : FVec Ideal S50000x384 .f32) (Wh : FVec Ideal S128x384 .f32)
    (bh : FVec Ideal S50000x384 .f32) (bm0 : Fin 256 → EReal) (bi0 bh0 : Fin 384 → EReal)
    (hbm : ∀ n o, bm (ix2 n o) = bm0 o) (hbi : ∀ n j, bi (ix2 n j) = bi0 j) (hbh : ∀ n j, bh (ix2 n j) = bh0 j)
    (n : Fin 50000) (q : Fin 128) :
    step hv ms me Wm bm Wi bi Wh bh (ix2 n q)
      = Cert.Spec.cell (fun c => hv (ix2 n c)) (fun c => ms (ix2 n c)) (fun c => me (ix2 n c))
          (fun k o => Wm (ix2 k o)) bm0 (fun o j => Wi (ix2 o j)) bi0 (fun k j => Wh (ix2 k j)) bh0 q := by
  have ha : (fun o => act hv ms me Wm bm (ix2 n o))
      = Cert.Spec.lin (Cert.Spec.cat3 (fun c => hv (ix2 n c)) (fun c => ms (ix2 n c)) (fun c => me (ix2 n c)))
          (fun k o => Wm (ix2 k o)) bm0 := funext fun o => act_apply hv ms me Wm bm bm0 hbm n o
  unfold step Cert.Spec.cell
  rw [cellOf_apply, zGate_apply]
  simp only [gateI_apply _ Wi bi bi0 hbi, gateH_apply hv Wh bh bh0 hbh, ha]

/-! ## The run's two rounds are that round -/

/-- The mean over a node's in-neighbours of the state rows `hv`. -/
def nbrMean (V0 : Valuation τ sig (Elt Ideal)) (hv : FVec Ideal S50000x128 .f32) : FVec Ideal S50000x128 .f32 :=
  Host.divf (nbrSum (V0 (Proc.devRef .tc main_arg2)) (V0 (Proc.devRef .tc main_arg3)) hv) (broadcastInDim S50000x128 ![0, 1] bcast_S50000x1_S50000x128_0_1 (res_main_v6 V0))

theorem nbrMean_apply (V0 : Valuation τ sig (Elt Ideal)) (hv : FVec Ideal S50000x128 .f32) (n : Fin 50000) (k : Fin 128) :
    nbrMean V0 hv (ix2 n k)
      = Ideal.div (nbrSum (V0 (Proc.devRef .tc main_arg2)) (V0 (Proc.devRef .tc main_arg3)) hv (ix2 n k)) (safeDeg (V0 (Proc.devRef .tc main_arg3)) (ix1 n)) := by
  unfold nbrMean res_main_v6
  rw [hostDivf_apply]
  exact congrArg (Ideal.div _) (column_apply (safeDeg (V0 (Proc.devRef .tc main_arg3))) _ _ n k)

theorem edgeMean_apply (V0 : Valuation τ sig (Elt Ideal)) (n : Fin 50000) (k : Fin 128) :
    (res_main_v11 V0 : FVec Ideal S50000x128 .f32) (ix2 n k)
      = Ideal.div (segSum (V0 (Proc.devRef .tc main_arg3)) (V0 (Proc.devRef .tc main_arg1)) (ix2 n k)) (safeDeg (V0 (Proc.devRef .tc main_arg3)) (ix1 n)) := by
  unfold res_main_v11 res_main_v6
  rw [hostDivf_apply]
  exact congrArg (Ideal.div _) (column_apply (safeDeg (V0 (Proc.devRef .tc main_arg3))) _ _ n k)

/-- Round one is the round at the input states and the weights' member 0. -/
theorem h1_eq_step (V0 : Valuation τ sig (Elt Ideal)) :
    h1 V0 = step (V0 (Proc.devRef .tc main_arg0)) (nbrMean V0 (V0 (Proc.devRef .tc main_arg0))) (res_main_v11 V0)
      (transpose S384x256 [1, 0] (shapeCast _ (extractStridedSlice S1x256x384 ![0, 0, 0] (V0 (Proc.devRef .tc main_arg4)) slices_S2x256x384_S1x256x384_0_0_0) shapeCasts_S1x256x384_S256x384) transposes_S256x384_S384x256_1_0)
      (broadcastInDim S50000x256 ![0, 1] bcast_S1x256_S50000x256_0_1 (broadcastInDim S1x256 ![1] bcast_S256_S1x256_1 (shapeCast _ (extractStridedSlice S1x256 ![0, 0] (V0 (Proc.devRef .tc main_arg5)) slices_S2x256_S1x256_0_0) shapeCasts_S1x256_S256)))
      (transpose S256x384 [1, 0] (shapeCast _ (extractStridedSlice S1x384x256 ![0, 0, 0] (V0 (Proc.devRef .tc main_arg6)) slices_S2x384x256_S1x384x256_0_0_0) shapeCasts_S1x384x256_S384x256) transposes_S384x256_S256x384_1_0)
      (broadcastInDim S50000x384 ![0, 1] bcast_S1x384_S50000x384_0_1 (broadcastInDim S1x384 ![1] bcast_S384_S1x384_1 (shapeCast _ (extractStridedSlice S1x384 ![0, 0] (V0 (Proc.devRef .tc main_arg8)) slices_S2x384_S1x384_0_0) shapeCasts_S1x384_S384)))
      (transpose S128x384 [1, 0] (shapeCast _ (extractStridedSlice S1x384x128 ![0, 0, 0] (V0 (Proc.devRef .tc main_arg7)) slices_S2x384x128_S1x384x128_0_0_0) shapeCasts_S1x384x128_S384x128) transposes_S384x128_S128x384_1_0)
      (broadcastInDim S50000x384 ![0, 1] bcast_S1x384_S50000x384_0_1 (broadcastInDim S1x384 ![1] bcast_S384_S1x384_1 (shapeCast _ (extractStridedSlice S1x384 ![0, 0] (V0 (Proc.devRef .tc main_arg9)) slices_S2x384_S1x384_0_0) shapeCasts_S1x384_S384))) := by
  unfold h1 res_main_v79 res_main_v71 res_main_v42 res_main_v51 step cellOf zGate gateI gateH act nbrMean nbrSum segSum wrapIdx
  rfl

/-- Round two is the round at round one's states and the weights' member 1. -/
theorem refOut_eq_step (V0 : Valuation τ sig (Elt Ideal)) :
    refOut V0 = step (h1 V0) (nbrMean V0 (h1 V0)) (res_main_v11 V0)
      (transpose S384x256 [1, 0] (shapeCast _ (extractStridedSlice S1x256x384 ![1, 0, 0] (V0 (Proc.devRef .tc main_arg4)) slices_S2x256x384_S1x256x384_1_0_0) shapeCasts_S1x256x384_S256x384) transposes_S256x384_S384x256_1_0)
      (broadcastInDim S50000x256 ![0, 1] bcast_S1x256_S50000x256_0_1 (broadcastInDim S1x256 ![1] bcast_S256_S1x256_1 (shapeCast _ (extractStridedSlice S1x256 ![1, 0] (V0 (Proc.devRef .tc main_arg5)) slices_S2x256_S1x256_1_0) shapeCasts_S1x256_S256)))
      (transpose S256x384 [1, 0] (shapeCast _ (extractStridedSlice S1x384x256 ![1, 0, 0] (V0 (Proc.devRef .tc main_arg6)) slices_S2x384x256_S1x384x256_1_0_0) shapeCasts_S1x384x256_S384x256) transposes_S384x256_S256x384_1_0)
      (broadcastInDim S50000x384 ![0, 1] bcast_S1x384_S50000x384_0_1 (broadcastInDim S1x384 ![1] bcast_S384_S1x384_1 (shapeCast _ (extractStridedSlice S1x384 ![1, 0] (V0 (Proc.devRef .tc main_arg8)) slices_S2x384_S1x384_1_0) shapeCasts_S1x384_S384)))
      (transpose S128x384 [1, 0] (shapeCast _ (extractStridedSlice S1x384x128 ![1, 0, 0] (V0 (Proc.devRef .tc main_arg7)) slices_S2x384x128_S1x384x128_1_0_0) shapeCasts_S1x384x128_S384x128) transposes_S384x128_S128x384_1_0)
      (broadcastInDim S50000x384 ![0, 1] bcast_S1x384_S50000x384_0_1 (broadcastInDim S1x384 ![1] bcast_S384_S1x384_1 (shapeCast _ (extractStridedSlice S1x384 ![1, 0] (V0 (Proc.devRef .tc main_arg9)) slices_S2x384_S1x384_1_0) shapeCasts_S1x384_S384))) := by
  unfold refOut res_main_v139 res_main_v110 res_main_v119 step cellOf zGate gateI gateH act nbrMean nbrSum segSum wrapIdx h1
  rfl

/-- The round at an index, its operands' entries named. -/
theorem step_cell (hv ms me : FVec Ideal S50000x128 .f32) (Wm : FVec Ideal S384x256 .f32) (bm : FVec Ideal S50000x256 .f32)
    (Wi : FVec Ideal S256x384 .f32) (bi : FVec Ideal S50000x384 .f32) (Wh : FVec Ideal S128x384 .f32)
    (bh : FVec Ideal S50000x384 .f32) (n : Fin 50000) (q : Fin 128)
    (h s e : Fin 128 → EReal) (Wm' : Fin 384 → Fin 256 → EReal) (bm0 : Fin 256 → EReal)
    (Wi' : Fin 256 → Fin 384 → EReal) (bi0 : Fin 384 → EReal) (Wh' : Fin 128 → Fin 384 → EReal) (bh0 : Fin 384 → EReal)
    (hh : ∀ c, hv (ix2 n c) = h c) (hs : ∀ c, ms (ix2 n c) = s c) (he : ∀ c, me (ix2 n c) = e c)
    (hWm : ∀ k o, Wm (ix2 k o) = Wm' k o) (hbm : ∀ n o, bm (ix2 n o) = bm0 o)
    (hWi : ∀ o j, Wi (ix2 o j) = Wi' o j) (hbi : ∀ n j, bi (ix2 n j) = bi0 j)
    (hWh : ∀ k j, Wh (ix2 k j) = Wh' k j) (hbh : ∀ n j, bh (ix2 n j) = bh0 j) :
    step hv ms me Wm bm Wi bi Wh bh (ix2 n q) = Cert.Spec.cell h s e Wm' bm0 Wi' bi0 Wh' bh0 q := by
  rw [step_apply hv ms me Wm bm Wi bi Wh bh bm0 bi0 bh0 hbm hbi hbh n q, funext hh, funext hs, funext he,
    show (fun k o => Wm (ix2 k o)) = Wm' from funext fun k => funext fun o => hWm k o,
    show (fun o j => Wi (ix2 o j)) = Wi' from funext fun o => funext fun j => hWi o j,
    show (fun k j => Wh (ix2 k j)) = Wh' from funext fun k => funext fun j => hWh k j]

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.ReferenceIdeal.Value.run (F := Ideal) m ρ

/-- Round one at (n, q). -/
theorem h1_apply (V0 : Valuation τ sig (Elt Ideal)) (n : Fin 50000) (q : Fin 128) :
    h1 V0 (ix2 n q) = Cert.Spec.cell
      (fun k => (V0 (Proc.devRef .tc main_arg0) : FVec Ideal S50000x128 .f32) (ix2 n k))
      (fun k => Ideal.div (nbrSum (V0 (Proc.devRef .tc main_arg2)) (V0 (Proc.devRef .tc main_arg3)) (V0 (Proc.devRef .tc main_arg0)) (ix2 n k)) (safeDeg (V0 (Proc.devRef .tc main_arg3)) (ix1 n)))
      (fun k => Ideal.div (segSum (V0 (Proc.devRef .tc main_arg3)) (V0 (Proc.devRef .tc main_arg1)) (ix2 n k)) (safeDeg (V0 (Proc.devRef .tc main_arg3)) (ix1 n)))
      (fun k o => (V0 (Proc.devRef .tc main_arg4) : FVec Ideal S2x256x384 .f32) (ix3 0 o k))
      (fun o => (V0 (Proc.devRef .tc main_arg5) : FVec Ideal S2x256 .f32) (ix2 0 o))
      (fun o j => (V0 (Proc.devRef .tc main_arg6) : FVec Ideal S2x384x256 .f32) (ix3 0 j o))
      (fun j => (V0 (Proc.devRef .tc main_arg8) : FVec Ideal S2x384 .f32) (ix2 0 j))
      (fun k j => (V0 (Proc.devRef .tc main_arg7) : FVec Ideal S2x384x128 .f32) (ix3 0 j k))
      (fun j => (V0 (Proc.devRef .tc main_arg9) : FVec Ideal S2x384 .f32) (ix2 0 j)) q := by
  rw [h1_eq_step]
  exact step_cell _ _ _ _ _ _ _ _ _ n q _ _ _ _ _ _ _ _ _
    (fun _ => rfl) (fun c => nbrMean_apply V0 _ n c) (fun c => edgeMean_apply V0 n c)
    (fun k o => weight_apply 0 _ _ _ _ 0 rfl k o) (fun n o => bias_apply 0 _ _ _ _ _ 0 rfl n o)
    (fun o j => weight_apply 0 _ _ _ _ 0 rfl o j) (fun n j => bias_apply 0 _ _ _ _ _ 0 rfl n j)
    (fun k j => weight_apply 0 _ _ _ _ 0 rfl k j) (fun n j => bias_apply 0 _ _ _ _ _ 0 rfl n j)

/-- Round two, the result, at (n, q). -/
theorem refOut_apply (V0 : Valuation τ sig (Elt Ideal)) (n : Fin 50000) (q : Fin 128) :
    refOut V0 (ix2 n q) = Cert.Spec.cell
      (fun k => h1 V0 (ix2 n k))
      (fun k => Ideal.div (nbrSum (V0 (Proc.devRef .tc main_arg2)) (V0 (Proc.devRef .tc main_arg3)) (h1 V0) (ix2 n k)) (safeDeg (V0 (Proc.devRef .tc main_arg3)) (ix1 n)))
      (fun k => Ideal.div (segSum (V0 (Proc.devRef .tc main_arg3)) (V0 (Proc.devRef .tc main_arg1)) (ix2 n k)) (safeDeg (V0 (Proc.devRef .tc main_arg3)) (ix1 n)))
      (fun k o => (V0 (Proc.devRef .tc main_arg4) : FVec Ideal S2x256x384 .f32) (ix3 1 o k))
      (fun o => (V0 (Proc.devRef .tc main_arg5) : FVec Ideal S2x256 .f32) (ix2 1 o))
      (fun o j => (V0 (Proc.devRef .tc main_arg6) : FVec Ideal S2x384x256 .f32) (ix3 1 j o))
      (fun j => (V0 (Proc.devRef .tc main_arg8) : FVec Ideal S2x384 .f32) (ix2 1 j))
      (fun k j => (V0 (Proc.devRef .tc main_arg7) : FVec Ideal S2x384x128 .f32) (ix3 1 j k))
      (fun j => (V0 (Proc.devRef .tc main_arg9) : FVec Ideal S2x384 .f32) (ix2 1 j)) q := by
  rw [refOut_eq_step]
  exact step_cell _ _ _ _ _ _ _ _ _ n q _ _ _ _ _ _ _ _ _
    (fun _ => rfl) (fun c => nbrMean_apply V0 _ n c) (fun c => edgeMean_apply V0 n c)
    (fun k o => weight_apply 1 _ _ _ _ 1 rfl k o) (fun n o => bias_apply 1 _ _ _ _ _ 1 rfl n o)
    (fun o j => weight_apply 1 _ _ _ _ 1 rfl o j) (fun n j => bias_apply 1 _ _ _ _ _ 1 rfl n j)
    (fun k j => weight_apply 1 _ _ _ _ 1 rfl k j) (fun n j => bias_apply 1 _ _ _ _ _ 1 rfl n j)

end Cert.ReferenceIdeal.RefStep

end
-- ==== Proof.PreDecode.lean ====
/-
  What the precondition says of the edge sources: every one of them names a node.
-/
import proofs.«411318_j68908455297282_3_alg».proof.Defs
import proofs.«411318_j68908455297282_3_alg».proof.Proof.Gen.Pre_finite_inputs
import proofs.«411318_j68908455297282_3_alg».proof.Proof.KOps
import Idealize.ShloMosaic.Lib.ValueIdx
import Idealize.ShloMosaic.Lib.ReduceAll
import Idealize.ShloMosaic.Lib.StableHlo.Predicate

noncomputable section

namespace Cert.Proof.PreDecode

open Idealize.ShloMosaic Idealize.ShloMosaic.ValueIdx Idealize.SL.Sem

/-- The last conjunct of the predicate, read alone. The predicate is a chain of conjunctions ending in
    `all (0 ≤ src ∧ src < 50000)`; if the tail of the chain is 1 at its one index then so is that last conjunct, an
    `and`-reduction over all edges, hence so is each edge's element, which is the conjunction of the two signed compares of
    `src e` with the constants 0 and 50000 (a scalar broadcast reads the scalar at every index). The float conjuncts
    before it are carried as the opaque word `v33` and never opened. -/
theorem part2_last [Cert.Pre_finite_inputs.Facts] {F : FTy → Type} [FloatOps F]
    (a2 : IVec Cert.Pre_finite_inputs.S800000 32) (a9 : FVec F Cert.Pre_finite_inputs.S2x384 .f32)
    (v33 : IVec Cert.Pre_finite_inputs.S_ 1)
    (e : Cert.Pre_finite_inputs.fn_part2 (F := F) a2 a9 v33 ix0 = 1#1) (i : Cert.Pre_finite_inputs.S800000.Idx) :
    IntOp.cmpi .sge (a2 i) 0#32 = 1#1 ∧ IntOp.cmpi .slt (a2 i) 50000#32 = 1#1 := by
  -- the rank-0 shape has one index, so the reduction is over every edge
  haveI : Subsingleton Cert.Pre_finite_inputs.S_.Idx := ⟨fun a b => funext fun d => d.elim0⟩
  unfold Cert.Pre_finite_inputs.fn_part2 at e
  -- x ∧ y = 1 gives y = 1: the reduction over the edges is 1
  have e44 := (IntOp.andi_eq_one.1 e).2
  -- an `and`-reduction that is 1 met only 1s: the element at edge i is 1
  have e43 := Host.reduce_andi_all _ _ _ _ _ e44 i
  -- that element is (src i ≥ 0) ∧ (src i < 50000)
  exact IntOp.andi_eq_one.1 e43

/-- Under the precondition every source index lies in `[0, 50000)`, on every device. -/
theorem inRange_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.KOps.InRange (m ((c.tc : Thread Cert.KernelIdeal.nD Cert.KernelIdeal.τ).loc Cert.KernelIdeal.main_arg2)) := by
  intro i
  -- the predicate of this device's arrays is 1 at its one index, and it unfolds to the tail of its chain
  exact part2_last _ _ _ (congrFun (h c) ix0) i

end Cert.Proof.PreDecode

end
-- ==== Proof.lean ====
/-
  The certificate: under the precondition — every float input finite and every edge source a node index — the
  kernel program, its idealization and the idealized reference run to the end with their arguments unchanged, and the
  two idealized programs end with the same node states.

  Both compute two rounds of: per node, the mean of its in-neighbours' states and of its incoming edges' features,
  a linear message layer on [state, neighbour mean, edge mean], and a GRU cell on that activation and the state
  (Proof/Spec.lean).  The kernel program multiplies the sums by the reciprocal of the degree floored at one where the
  reference divides by it (one number, the divisor being at least one), gathers neighbour rows with a fill for
  out-of-range indices that an in-range index never meets, and computes the cell tile by tile where the reference
  computes it on whole arrays; at the extended reals a change of float format is the identity and both matrix
  products are the same sums.
-/
import proofs.«411318_j68908455297282_3_alg».proof.Defs
import proofs.«411318_j68908455297282_3_alg».proof.Proof.Gen.Kernel.Frame
import proofs.«411318_j68908455297282_3_alg».proof.Proof.KVal
import proofs.«411318_j68908455297282_3_alg».proof.Proof.RefStep
import proofs.«411318_j68908455297282_3_alg».proof.Proof.PreDecode
import proofs.«411318_j68908455297282_3_alg».proof.Proof.Gen.Pre_finite_inputs
import Idealize.ShloMosaic.Adequacy
import Idealize.ShloMosaic.Init

set_option maxRecDepth 16384

noncomputable section

namespace Cert.Proof

open Idealize.ShloMosaic Idealize.ShloMosaic.ValueIdx Idealize.SL.Sem

/-! ## The two programs' host operations are the same functions -/

theorem segSum_eq (a3 : IVec Cert.KernelIdeal.S800000 32) (u : FVec Ideal Cert.KernelIdeal.S800000x128 .f32) :
    Cert.KernelIdeal.KOps.segSum a3 u = Cert.ReferenceIdeal.RefStep.segSum a3 u := rfl

theorem safeDeg_eq (a3 : IVec Cert.KernelIdeal.S800000 32) :
    Cert.KernelIdeal.KOps.safeDeg a3 = Cert.ReferenceIdeal.RefStep.safeDeg a3 := rfl

/-- With every source index in range, the kernel program's neighbour sum (through the filled gather) is the
    reference's (through the plain gather). -/
theorem nbrSum_eq (a2 a3 : IVec Cert.KernelIdeal.S800000 32) (h : Cert.KernelIdeal.KOps.InRange a2)
    (hv : FVec Ideal Cert.KernelIdeal.S50000x128 .f32) :
    Cert.KernelIdeal.KOps.nbrSum a2 a3 hv = Cert.ReferenceIdeal.RefStep.nbrSum a2 a3 hv := by
  unfold Cert.KernelIdeal.KOps.nbrSum
  rw [Cert.KernelIdeal.KOps.takeRows_eq a2 h hv]
  rfl

/-! ## The claims -/

section
variable [hPre : Cert.Pre_finite_inputs.Facts]

theorem frame_k : Cert.frame_Kernel (hKernel := Cert.Kernel.Gen.facts) :=
  fun m ρ _ => Cert.Kernel.Gen.frame m ρ

theorem frame_ki : Cert.frame_KernelIdeal (hKernelIdeal := Cert.KernelIdeal.Gen.facts) :=
  fun m ρ _ => Cert.KernelIdeal.Gen.frame m ρ

theorem frame_ri : Cert.frame_ReferenceIdeal (hReferenceIdeal := Cert.ReferenceIdeal.Gen.facts) :=
  fun m ρ _ => (θ_run Cert.ReferenceIdeal.defs _ _).mono (fun _ h c => (h c).2)
    (Cert.ReferenceIdeal.RefStep.ref_run m ρ)

/-- The two idealized programs end with the same node states: round by round the cells' nine operands agree. -/
theorem algebraic : Cert.algebraic_KernelIdeal_ReferenceIdeal (hKernelIdeal := Cert.KernelIdeal.Gen.facts)
    (hReferenceIdeal := Cert.ReferenceIdeal.Gen.facts) := by
  intro m ρ m' ρ' hpre hagree
  refine ⟨fun c => Cert.KernelIdeal.KVal.round1 m ρ c, Cert.KernelIdeal.KVal.run m ρ, ?_⟩
  refine (θ_run Cert.ReferenceIdeal.defs _ _).mono (fun _ h c => ⟨(h c).1.trans ?_, (h c).2⟩)
    (Cert.ReferenceIdeal.RefStep.ref_run m' ρ')
  have hr := Cert.Proof.PreDecode.inRange_of_pre m hpre c
  obtain ⟨e0, e1, e2, e3, e4, e5, e6, e7, e8, e9⟩ := hagree c
  -- round one
  have h1 : Cert.ReferenceIdeal.RefStep.h1 (StableHlo.launchContents m' c) = Cert.KernelIdeal.KVal.round0 m ρ c := by
    funext i
    obtain ⟨n, q, rfl⟩ : ∃ (n : Fin 50000) (q : Fin 128), i = ix2 n q := ⟨i 0, i 1, eq_ix2 i⟩
    rw [Cert.ReferenceIdeal.RefStep.h1_apply, Cert.KernelIdeal.KVal.round0_apply]
    show Cert.Spec.cell _ _ _ _ _ _ _ _ _ _ = Cert.Spec.cell _ _ _ _ _ _ _ _ _ _
    simp only [StableHlo.launchContents]
    erw [e0, e1, e2, e3, e4, e5, e6, e7, e8, e9]
    simp only [nbrSum_eq _ _ hr, segSum_eq, safeDeg_eq]
  funext i
  obtain ⟨n, q, rfl⟩ : ∃ (n : Fin 50000) (q : Fin 128), i = ix2 n q := ⟨i 0, i 1, eq_ix2 i⟩
  show Cert.ReferenceIdeal.RefStep.refOut (StableHlo.launchContents m' c) (ix2 n q) = Cert.KernelIdeal.KVal.round1 m ρ c (ix2 n q)
  rw [Cert.ReferenceIdeal.RefStep.refOut_apply, Cert.KernelIdeal.KVal.round1_apply, h1]
  show Cert.Spec.cell _ _ _ _ _ _ _ _ _ _ = Cert.Spec.cell _ _ _ _ _ _ _ _ _ _
  simp only [StableHlo.launchContents]
  erw [e1, e2, e3, e4, e5, e6, e7, e8, e9]
  simp only [nbrSum_eq _ _ hr, segSum_eq, safeDeg_eq]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
